-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v28)) (v2 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_v29) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x16x1 : Shape := ⟨3, ![8192, 16, 1]⟩
abbrev S8192x16x3 : Shape := ⟨3, ![8192, 16, 3]⟩
abbrev S8192x16x5 : Shape := ⟨3, ![8192, 16, 5]⟩
abbrev S32768x2 : Shape := ⟨2, ![32768, 2]⟩
abbrev S32768x9x19x9 : Shape := ⟨4, ![32768, 9, 19, 9]⟩
abbrev S2x32 : Shape := ⟨2, ![2, 32]⟩
abbrev S32 : Shape := ⟨1, ![32]⟩
abbrev S32x32 : Shape := ⟨2, ![32, 32]⟩
abbrev S32x4864 : Shape := ⟨2, ![32, 4864]⟩
abbrev S32768 : Shape := ⟨1, ![32768]⟩
abbrev S_ : Shape := ⟨0, ![]⟩

class Facts : Prop where
  bcast_S_S8192x16x1 : S_.BroadcastsInDim S8192x16x1 (![] : Fin 0 → Fin S8192x16x1.rank)
  reducesTo_S8192x16x1_S_d0_1_2 : S8192x16x1.ReducesTo [0, 1, 2] S_
  h_S_ : 0 < S_.numel
  bcast_S_S8192x16x3 : S_.BroadcastsInDim S8192x16x3 (![] : Fin 0 → Fin S8192x16x3.rank)
  reducesTo_S8192x16x3_S_d0_1_2 : S8192x16x3.ReducesTo [0, 1, 2] S_
  bcast_S_S8192x16x5 : S_.BroadcastsInDim S8192x16x5 (![] : Fin 0 → Fin S8192x16x5.rank)
  reducesTo_S8192x16x5_S_d0_1_2 : S8192x16x5.ReducesTo [0, 1, 2] S_
  bcast_S_S32768x2 : S_.BroadcastsInDim S32768x2 (![] : Fin 0 → Fin S32768x2.rank)
  reducesTo_S32768x2_S_d0_1 : S32768x2.ReducesTo [0, 1] S_
  bcast_S_S32768x9x19x9 : S_.BroadcastsInDim S32768x9x19x9 (![] : Fin 0 → Fin S32768x9x19x9.rank)
  reducesTo_S32768x9x19x9_S_d0_1_2_3 : S32768x9x19x9.ReducesTo [0, 1, 2, 3] S_
  bcast_S_S2x32 : S_.BroadcastsInDim S2x32 (![] : Fin 0 → Fin S2x32.rank)
  reducesTo_S2x32_S_d0_1 : S2x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x4864 : S_.BroadcastsInDim S32x4864 (![] : Fin 0 → Fin S32x4864.rank)
  reducesTo_S32x4864_S_d0_1 : S32x4864.ReducesTo [0, 1] S_

variable [Facts]

def fn_part2 {F : FTy → Type} [FloatOps F] (main_arg7 : FVec F S32x32 .f32) (main_arg8 : FVec F S32 .f32) (main_arg9 : FVec F S32x4864 .f32) (main_v33 : IVec S_ 1) : IVec S_ 1 :=
  let main_v34 : FVec F S32x32 .f32 := Host.absf main_arg7
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x4864 .f32 := Host.absf main_arg9
  let main_cst_16 : FVec F S_ .f32 := constant S_ .f32 0x7F800000#32
  let main_v45 : FVec F S32x4864 .f32 := broadcastInDim S32x4864 ![] bcast_S_S32x4864 main_cst_16
  let main_v46 : IVec S32x4864 1 := cmpf .olt main_v44 main_v45
  let main_c_17 : IVec S_ 1 := constantI S_ 1 1#1
  let main_v47 : IVec S_ 1 := (fun x v => Host.reduce IntOp.andi x v reducesTo_S32x4864_S_d0_1 h_S_) main_v46 main_c_17
  let main_v48 : IVec S_ 1 := andi main_v43 main_v47
  main_v48

def fn_part1 {F : FTy → Type} [FloatOps F] (main_arg4 : FVec F S32768x9x19x9 .f32) (main_arg5 : FVec F S2x32 .f32) (main_arg6 : FVec F S32 .f32) (main_arg7 : FVec F S32x32 .f32) (main_arg8 : FVec F S32 .f32) (main_arg9 : FVec F S32x4864 .f32) (main_v13 : IVec S_ 1) (main_v16 : IVec S32768x2 1) : IVec S_ 1 :=
  let main_c_5 : IVec S_ 1 := constantI S_ 1 1#1
  let main_v17 : IVec S_ 1 := (fun x v => Host.reduce IntOp.andi x v reducesTo_S32768x2_S_d0_1 h_S_) main_v16 main_c_5
  let main_v18 : IVec S_ 1 := andi main_v13 main_v17
  let main_v19 : FVec F S32768x9x19x9 .f32 := Host.absf main_arg4
  let main_cst_6 : FVec F S_ .f32 := constant S_ .f32 0x7F800000#32
  let main_v20 : FVec F S32768x9x19x9 .f32 := broadcastInDim S32768x9x19x9 ![] bcast_S_S32768x9x19x9 main_cst_6
  let main_v21 : IVec S32768x9x19x9 1 := cmpf .olt main_v19 main_v20
  let main_c_7 : IVec S_ 1 := constantI S_ 1 1#1
  let main_v22 : IVec S_ 1 := (fun x v => Host.reduce IntOp.andi x v reducesTo_S32768x9x19x9_S_d0_1_2_3 h_S_) main_v21 main_c_7
  let main_v23 : IVec S_ 1 := andi main_v18 main_v22
  let main_v24 : FVec F S2x32 .f32 := Host.absf main_arg5
  let main_cst_8 : FVec F S_ .f32 := constant S_ .f32 0x7F800000#32
  let main_v25 : FVec F S2x32 .f32 := broadcastInDim S2x32 ![] bcast_S_S2x32 main_cst_8
  let main_v26 : IVec S2x32 1 := cmpf .olt main_v24 main_v25
  let main_c_9 : IVec S_ 1 := constantI S_ 1 1#1
  let main_v27 : IVec S_ 1 := (fun x v => Host.reduce IntOp.andi x v reducesTo_S2x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_v33

def fn {F : FTy → Type} [FloatOps F] (main_arg0 : FVec F S8192x16x1 .f32) (main_arg1 : FVec F S8192x16x3 .f32) (main_arg2 : FVec F S8192x16x5 .f32) (main_arg3 : FVec F S32768x2 .f32) (main_arg4 : FVec F S32768x9x19x9 .f32) (main_arg5 : FVec F S2x32 .f32) (main_arg6 : FVec F S32 .f32) (main_arg7 : FVec F S32x32 .f32) (main_arg8 : FVec F S32 .f32) (main_arg9 : FVec F S32x4864 .f32) (main_arg10 : IVec S32768 32) (main_arg11 : IVec S32768 32) : IVec S_ 1 :=
  let main_v0 : FVec F S8192x16x1 .f32 := Host.absf main_arg0
  let main_cst : FVec F S_ .f32 := constant S_ .f32 0x7F800000#32
  let main_v1 : FVec F S8192x16x1 .f32 := broadcastInDim S8192x16x1 ![] bcast_S_S8192x16x1 main_cst
  let main_v2 : IVec S8192x16x1 1 := cmpf .olt main_v0 main_v1
  let main_c : IVec S_ 1 := constantI S_ 1 1#1
  let main_v3 : IVec S_ 1 := (fun x v => Host.reduce IntOp.andi x v reducesTo_S8192x16x1_S_d0_1_2 h_S_) main_v2 main_c
  let main_v4 : FVec F S8192x16x3 .f32 := Host.absf main_arg1
  let main_cst_0 : FVec F S_ .f32 := constant S_ .f32 0x7F800000#32
  let main_v5 : FVec F S8192x16x3 .f32 := broadcastInDim S8192x16x3 ![] bcast_S_S8192x16x3 main_cst_0
  let main_v6 : IVec S8192x16x3 1 := cmpf .olt main_v4 main_v5
  let main_c_1 : IVec S_ 1 := constantI S_ 1 1#1
  let main_v7 : IVec S_ 1 := (fun x v => Host.reduce IntOp.andi x v reducesTo_S8192x16x3_S_d0_1_2 h_S_) main_v6 main_c_1
  let main_v8 : IVec S_ 1 := andi main_v3 main_v7
  let main_v9 : FVec F S8192x16x5 .f32 := Host.absf main_arg2
  let main_cst_2 : FVec F S_ .f32 := constant S_ .f32 0x7F800000#32
  let main_v10 : FVec F S8192x16x5 .f32 := broadcastInDim S8192x16x5 ![] bcast_S_S8192x16x5 main_cst_2
  let main_v11 : IVec S8192x16x5 1 := cmpf .olt main_v9 main_v10
  let main_c_3 : IVec S_ 1 := constantI S_ 1 1#1
  let main_v12 : IVec S_ 1 := (fun x v => Host.reduce IntOp.andi x v reducesTo_S8192x16x5_S_d0_1_2 h_S_) main_v11 main_c_3
  let main_v13 : IVec S_ 1 := andi main_v8 main_v12
  let main_v14 : FVec F S32768x2 .f32 := Host.absf main_arg3
  let main_cst_4 : FVec F S_ .f32 := constant S_ .f32 0x7F800000#32
  let main_v15 : FVec F S32768x2 .f32 := broadcastInDim S32768x2 ![] bcast_S_S32768x2 main_cst_4
  let main_v16 : IVec S32768x2 1 := cmpf .olt main_v14 main_v15
  fn_part1 (F := F) main_arg4 main_arg5 main_arg6 main_arg7 main_arg8 main_arg9 main_v13 main_v16
-- ==== Kernel.lean ====
abbrev S8192x16x1 : Shape := ⟨3, ![8192, 16, 1]⟩
abbrev S8192x16x3 : Shape := ⟨3, ![8192, 16, 3]⟩
abbrev S8192x16x5 : Shape := ⟨3, ![8192, 16, 5]⟩
abbrev S32768x2 : Shape := ⟨2, ![32768, 2]⟩
abbrev S32768x9x19x9 : Shape := ⟨4, ![32768, 9, 19, 9]⟩
abbrev S2x32 : Shape := ⟨2, ![2, 32]⟩
abbrev S32 : Shape := ⟨1, ![32]⟩
abbrev S32x32 : Shape := ⟨2, ![32, 32]⟩
abbrev S32x4864 : Shape := ⟨2, ![32, 4864]⟩
abbrev S32768 : Shape := ⟨1, ![32768]⟩
abbrev S_ : Shape := ⟨0, ![]⟩
abbrev S32768x1 : Shape := ⟨2, ![32768, 1]⟩
abbrev S32768x16x1 : Shape := ⟨3, ![32768, 16, 1]⟩
abbrev S32768x16x3 : Shape := ⟨3, ![32768, 16, 3]⟩
abbrev S32768x16x5 : Shape := ⟨3, ![32768, 16, 5]⟩
abbrev S32768x16x9 : Shape := ⟨3, ![32768, 16, 9]⟩
abbrev S32768x9x171 : Shape := ⟨3, ![32768, 9, 171]⟩
abbrev S256x16x9 : Shape := ⟨3, ![256, 16, 9]⟩
abbrev S256x2 : Shape := ⟨2, ![256, 2]⟩
abbrev S256x9x171 : Shape := ⟨3, ![256, 9, 171]⟩
abbrev S256x32 : Shape := ⟨2, ![256, 32]⟩
abbrev S1x32 : Shape := ⟨2, ![1, 32]⟩
abbrev S256x4864 : Shape := ⟨2, ![256, 4864]⟩
abbrev S256x16x304 : Shape := ⟨3, ![256, 16, 304]⟩
abbrev S256x16x171 : Shape := ⟨3, ![256, 16, 171]⟩
abbrev S256x304x9 : Shape := ⟨3, ![256, 304, 9]⟩
abbrev S8192x16x9 : Shape := ⟨3, ![8192, 16, 9]⟩

abbrev nBuf : Space → Nat
  | .hbm => 49
  | .vmem => 13
  | .smem => 0
  | _ => 0

abbrev bufTy : (tb : Table) → Fin (tcTables nBuf tb) → BufTy
  | .hbm, ⟨0, _⟩ => ⟨S8192x16x1, .f32⟩
  | .hbm, ⟨1, _⟩ => ⟨S8192x16x3, .f32⟩
  | .hbm, ⟨2, _⟩ => ⟨S8192x16x5, .f32⟩
  | .hbm, ⟨3, _⟩ => ⟨S32768x2, .f32⟩
  | .hbm, ⟨4, _⟩ => ⟨S32768x9x19x9, .f32⟩
  | .hbm, ⟨5, _⟩ => ⟨S2x32, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S32x4864, .f32⟩
  | .hbm, ⟨10, _⟩ => ⟨S32768, .i32⟩
  | .hbm, ⟨11, _⟩ => ⟨S32768, .i32⟩
  | .hbm, ⟨12, _⟩ => ⟨S_, .i32⟩
  | .hbm, ⟨13, _⟩ => ⟨S32768, .i32⟩
  | .hbm, ⟨14, _⟩ => ⟨S32768, .i1⟩
  | .hbm, ⟨15, _⟩ => ⟨S_, .i32⟩
  | .hbm, ⟨16, _⟩ => ⟨S32768, .i32⟩
  | .hbm, ⟨17, _⟩ => ⟨S32768, .i32⟩
  | .hbm, ⟨18, _⟩ => ⟨S32768, .i32⟩
  | .hbm, ⟨19, _⟩ => ⟨S32768x1, .i32⟩
  | .hbm, ⟨20, _⟩ => ⟨S32768x16x1, .f32⟩
  | .hbm, ⟨21, _⟩ => ⟨S_, .i32⟩
  | .hbm, ⟨22, _⟩ => ⟨S32768, .i32⟩
  | .hbm, ⟨23, _⟩ => ⟨S32768, .i1⟩
  | .hbm, ⟨24, _⟩ => ⟨S_, .i32⟩
  | .hbm, ⟨25, _⟩ => ⟨S32768, .i32⟩
  | .hbm, ⟨26, _⟩ => ⟨S32768, .i32⟩
  | .hbm, ⟨27, _⟩ => ⟨S32768, .i32⟩
  | .hbm, ⟨28, _⟩ => ⟨S32768x1, .i32⟩
  | .hbm, ⟨29, _⟩ => ⟨S32768x16x3, .f32⟩
  | .hbm, ⟨30, _⟩ => ⟨S_, .i32⟩
  | .hbm, ⟨31, _⟩ => ⟨S32768, .i32⟩
  | .hbm, ⟨32, _⟩ => ⟨S32768, .i1⟩
  | .hbm, ⟨33, _⟩ => ⟨S_, .i32⟩
  | .hbm, ⟨34, _⟩ => ⟨S32768, .i32⟩
  | .hbm, ⟨35, _⟩ => ⟨S32768, .i32⟩
  | .hbm, ⟨36, _⟩ => ⟨S32768, .i32⟩
  | .hbm, ⟨37, _⟩ => ⟨S32768x1, .i32⟩
  | .hbm, ⟨38, _⟩ => ⟨S32768x16x5, .f32⟩
  | .hbm, ⟨39, _⟩ => ⟨S32768x16x9, .f32⟩
  | .hbm, ⟨40, _⟩ => ⟨S32768x9x171, .f32⟩
  | .hbm, ⟨41, _⟩ => ⟨S32768x16x9, .f32⟩
  | .hbm, ⟨42, _⟩ => ⟨S_, .f32⟩
  | .hbm, ⟨43, _⟩ => ⟨S8192x16x9, .f32⟩
  | .hbm, ⟨44, _⟩ => ⟨S32768x1, .i32⟩
  | .hbm, ⟨45, _⟩ => ⟨S8192x16x9, .f32⟩
  | .hbm, ⟨46, _⟩ => ⟨S8192x16x1, .f32⟩
  | .hbm, ⟨47, _⟩ => ⟨S8192x16x3, .f32⟩
  | .hbm, ⟨48, _⟩ => ⟨S8192x16x5, .f32⟩
  | .local _ .vmem, ⟨0, _⟩ => ⟨S256x16x9, .f32⟩
  | .local _ .vmem, ⟨1, _⟩ => ⟨S256x16x9, .f32⟩
  | .local _ .vmem, ⟨2, _⟩ => ⟨S256x2, .f32⟩
  | .local _ .vmem, ⟨3, _⟩ => ⟨S256x2, .f32⟩
  | .local _ .vmem, ⟨4, _⟩ => ⟨S256x9x171, .f32⟩
  | .local _ .vmem, ⟨5, _⟩ => ⟨S256x9x171, .f32⟩
  | .local _ .vmem, ⟨6, _⟩ => ⟨S2x32, .f32⟩
  | .local _ .vmem, ⟨7, _⟩ => ⟨S32, .f32⟩
  | .local _ .vmem, ⟨8, _⟩ => ⟨S32x32, .f32⟩
  | .local _ .vmem, ⟨9, _⟩ => ⟨S32, .f32⟩
  | .local _ .vmem, ⟨10, _⟩ => ⟨S32x4864, .f32⟩
  | .local _ .vmem, ⟨11, _⟩ => ⟨S256x16x9, .f32⟩
  | .local _ .vmem, ⟨12, _⟩ => ⟨S256x16x9, .f32⟩
  | _, _ => ⟨S8192x16x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x16x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x9x171 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x4864 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x16x9 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S32768 : S_.BroadcastsInDim S32768 (![] : Fin 0 → Fin S32768.rank)
  bcast_S32768_S32768x1_0 : S32768.BroadcastsInDim S32768x1 (![0] : Fin 1 → Fin S32768x1.rank)
  concatenates_S32768x16x1_S32768x16x3_S32768x16x5_S32768x16x9_d2 : Shape.Concatenates [S32768x16x1, S32768x16x3, S32768x16x5] S32768x16x9 2
  shapeCasts_S32768x9x19x9_S32768x9x171 : S32768x9x19x9.ShapeCasts S32768x9x171
  inb_S256x16x9_S256x16x9_0_0_0 : ∀ a, (![0, 0, 0] : Fin 3 → Nat) a + S256x16x9.size a ≤ S256x16x9.size a
  h_S256x16x9 : 0 < S256x16x9.numel
  shapeCasts_S256x16x9_S256x16x9 : S256x16x9.ShapeCasts S256x16x9
  bitsLt_bf16_f32 : FTy.bits .bf16 < FTy.bits .f32
  inb_S256x2_S256x2_0_0 : ∀ a, (![0, 0] : Fin 2 → Nat) a + S256x2.size a ≤ S256x2.size a
  h_S256x2 : 0 < S256x2.numel
  inb_S256x9x171_S256x9x171_0_0_0 : ∀ a, (![0, 0, 0] : Fin 3 → Nat) a + S256x9x171.size a ≤ S256x9x171.size a
  h_S256x9x171 : 0 < S256x9x171.numel
  shapeCasts_S256x9x171_S256x9x171 : S256x9x171.ShapeCasts S256x9x171
  inb_S2x32_S2x32_0_0 : ∀ a, (![0, 0] : Fin 2 → Nat) a + S2x32.size a ≤ S2x32.size a
  h_S2x32 : 0 < S2x32.numel
  inb_S32_S32_0 : ∀ a, (![0] : Fin 1 → Nat) a + S32.size a ≤ S32.size a
  h_S32 : 0 < S32.numel
  inb_S32x32_S32x32_0_0 : ∀ a, (![0, 0] : Fin 2 → Nat) a + S32x32.size a ≤ S32x32.size a
  h_S32x32 : 0 < S32x32.numel
  inb_S32x4864_S32x4864_0_0 : ∀ a, (![0, 0] : Fin 2 → Nat) a + S32x4864.size a ≤ S32x4864.size a
  h_S32x4864 : 0 < S32x4864.numel
  shapeCasts_S32_S1x32 : S32.ShapeCasts S1x32
  broadcasts_S1x32_S256x32 : S1x32.Broadcasts S256x32
  shapeCasts_S256x4864_S256x16x304 : S256x4864.ShapeCasts S256x16x304
  shapeCasts_S256x16x171_S256x304x9 : S256x16x171.ShapeCasts S256x304x9
  bcast_S_S8192x16x9 : S_.BroadcastsInDim S8192x16x9 (![] : Fin 0 → Fin S8192x16x9.rank)
  slices_S8192x16x9_S8192x16x1_0_0_0 : S8192x16x9.Slices ![0, 0, 0] S8192x16x1
  slices_S8192x16x9_S8192x16x3_0_0_1 : S8192x16x9.Slices ![0, 0, 1] S8192x16x3
  slices_S8192x16x9_S8192x16x5_0_0_4 : S8192x16x9.Slices ![0, 0, 4] S8192x16x5
  gather_S8192x16x1_S32768x1_S32768x16x1_12_0_n_n_0_1_1161_wf : GatherDims.WF S8192x16x1 S32768x1 S32768x16x1 [1, 2] [0] [] [0] [] 1 ![1, 16, 1]
  gather_S8192x16x3_S32768x1_S32768x16x3_12_0_n_n_0_1_1163_wf : GatherDims.WF S8192x16x3 S32768x1 S32768x16x3 [1, 2] [0] [] [0] [] 1 ![1, 16, 3]
  gather_S8192x16x5_S32768x1_S32768x16x5_12_0_n_n_0_1_1165_wf : GatherDims.WF S8192x16x5 S32768x1 S32768x16x5 [1, 2] [0] [] [0] [] 1 ![1, 16, 5]
  dot_S256x2_S2x32_S256x32_1_0_0_1_n_n_wf : DotDims.WF S256x2 S2x32 S256x32 [1] [0] [0] [1] [] []
  dot_S256x32_S32x32_S256x32_1_0_0_1_n_n_wf : DotDims.WF S256x32 S32x32 S256x32 [1] [0] [0] [1] [] []
  dot_S256x32_S32x4864_S256x4864_1_0_0_1_n_n_wf : DotDims.WF S256x32 S32x4864 S256x4864 [1] [0] [0] [1] [] []
  dot_S256x16x9_S256x9x171_S256x16x171_2_1_1_2_0_0_wf : DotDims.WF S256x16x9 S256x9x171 S256x16x171 [2] [1] [1] [2] [0] [0]
  dot_S256x16x304_S256x304x9_S256x16x9_2_1_1_2_0_0_wf : DotDims.WF S256x16x304 S256x304x9 S256x16x9 [2] [1] [1] [2] [0] [0]
  scatter_S8192x16x9_S32768x1_S32768x16x9_12_0_0_1_wf : ScatterDims.WF S8192x16x9 S32768x1 S32768x16x9 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16x9.size a ≤ S32768x16x9.size a
  hwx0_0 : ∀ i : grid0.Coords, EltTy.bits .f32 = 32 ∨ (Rect.block (s := S32768x16x9) S256x16x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2.size a ≤ S32768x2.size a
  hwx0_1 : ∀ i : grid0.Coords, EltTy.bits .f32 = 32 ∨ (Rect.block (s := S32768x2) S256x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x9x171.size a ≤ S32768x9x171.size a
  hwx0_2 : ∀ i : grid0.Coords, EltTy.bits .f32 = 32 ∨ (Rect.block (s := S32768x9x171) S256x9x171.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x32.size a ≤ S2x32.size a
  hwx0_3 : ∀ i : grid0.Coords, EltTy.bits .f32 = 32 ∨ (Rect.block (s := S2x32) S2x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x4864.size a ≤ S32x4864.size a
  hwx0_7 : ∀ i : grid0.Coords, EltTy.bits .f32 = 32 ∨ (Rect.block (s := S32x4864) S32x4864.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x16x9.size a ≤ S32768x16x9.size a
  hwx0_8 : ∀ i : grid0.Coords, EltTy.bits .f32 = 32 ∨ (Rect.block (s := S32768x16x9) S256x16x9.size (cc0_transform_8 i) (hinb0_8 i)).WholeWords (EltTy.packing .f32)

variable [Facts₀]

def gather_S8192x16x1_S32768x1_S32768x16x1_12_0_n_n_0_1_1161 : GatherDims S8192x16x1 S32768x1 S32768x16x1 where
  offsetDims := [1, 2]
  collapsedSliceDims := [0]
  operandBatchingDims := []
  startIndicesBatchingDims := []
  startIndexMap := [0]
  indexVectorDim := 1
  sliceSizes := ![1, 16, 1]
  wf := gather_S8192x16x1_S32768x1_S32768x16x1_12_0_n_n_0_1_1161_wf
def gather_S8192x16x3_S32768x1_S32768x16x3_12_0_n_n_0_1_1163 : GatherDims S8192x16x3 S32768x1 S32768x16x3 where
  offsetDims := [1, 2]
  collapsedSliceDims := [0]
  operandBatchingDims := []
  startIndicesBatchingDims := []
  startIndexMap := [0]
  indexVectorDim := 1
  sliceSizes := ![1, 16, 3]
  wf := gather_S8192x16x3_S32768x1_S32768x16x3_12_0_n_n_0_1_1163_wf
def gather_S8192x16x5_S32768x1_S32768x16x5_12_0_n_n_0_1_1165 : GatherDims S8192x16x5 S32768x1 S32768x16x5 where
  offsetDims := [1, 2]
  collapsedSliceDims := [0]
  operandBatchingDims := []
  startIndicesBatchingDims := []
  startIndexMap := [0]
  indexVectorDim := 1
  sliceSizes := ![1, 16, 5]
  wf := gather_S8192x16x5_S32768x1_S32768x16x5_12_0_n_n_0_1_1165_wf
def dot_S256x2_S2x32_S256x32_1_0_0_1_n_n : DotDims S256x2 S2x32 S256x32 where
  lhsContracting := [1]
  rhsContracting := [0]
  lhsNonContracting := [0]
  rhsNonContracting := [1]
  lhsBatch := []
  rhsBatch := []
  wf := dot_S256x2_S2x32_S256x32_1_0_0_1_n_n_wf
def dot_S256x32_S32x32_S256x32_1_0_0_1_n_n : DotDims S256x32 S32x32 S256x32 where
  lhsContracting := [1]
  rhsContracting := [0]
  lhsNonContracting := [0]
  rhsNonContracting := [1]
  lhsBatch := []
  rhsBatch := []
  wf := dot_S256x32_S32x32_S256x32_1_0_0_1_n_n_wf
def dot_S256x32_S32x4864_S256x4864_1_0_0_1_n_n : DotDims S256x32 S32x4864 S256x4864 where
  lhsContracting := [1]
  rhsContracting := [0]
  lhsNonContracting := [0]
  rhsNonContracting := [1]
  lhsBatch := []
  rhsBatch := []
  wf := dot_S256x32_S32x4864_S256x4864_1_0_0_1_n_n_wf
def dot_S256x16x9_S256x9x171_S256x16x171_2_1_1_2_0_0 : DotDims S256x16x9 S256x9x171 S256x16x171 where
  lhsContracting := [2]
  rhsContracting := [1]
  lhsNonContracting := [1]
  rhsNonContracting := [2]
  lhsBatch := [0]
  rhsBatch := [0]
  wf := dot_S256x16x9_S256x9x171_S256x16x171_2_1_1_2_0_0_wf
def dot_S256x16x304_S256x304x9_S256x16x9_2_1_1_2_0_0 : DotDims S256x16x304 S256x304x9 S256x16x9 where
  lhsContracting := [2]
  rhsContracting := [1]
  lhsNonContracting := [1]
  rhsNonContracting := [2]
  lhsBatch := [0]
  rhsBatch := [0]
  wf := dot_S256x16x304_S256x304x9_S256x16x9_2_1_1_2_0_0_wf
def scatter_S8192x16x9_S32768x1_S32768x16x9_12_0_0_1 : ScatterDims S8192x16x9 S32768x1 S32768x16x9 where
  updateWindowDims := [1, 2]
  insertedWindowDims := [0]
  scatterDimsToOperandDims := [0]
  indexVectorDim := 1
  wf := scatter_S8192x16x9_S32768x1_S32768x16x9_12_0_0_1_wf

abbrev win0_0 : Pipeline.Window sig grid0 :=
  Pipeline.Window.ofSpec (Memref.whole main_v21) S256x16x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S256x9x171.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S2x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S32x4864.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v23) S256x16x9.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192x16x1 : Shape := ⟨3, ![8192, 16, 1]⟩
abbrev S8192x16x3 : Shape := ⟨3, ![8192, 16, 3]⟩
abbrev S8192x16x5 : Shape := ⟨3, ![8192, 16, 5]⟩
abbrev S32768x2 : Shape := ⟨2, ![32768, 2]⟩
abbrev S32768x9x19x9 : Shape := ⟨4, ![32768, 9, 19, 9]⟩
abbrev S2x32 : Shape := ⟨2, ![2, 32]⟩
abbrev S32 : Shape := ⟨1, ![32]⟩
abbrev S32x32 : Shape := ⟨2, ![32, 32]⟩
abbrev S32x4864 : Shape := ⟨2, ![32, 4864]⟩
abbrev S32768 : Shape := ⟨1, ![32768]⟩
abbrev S_ : Shape := ⟨0, ![]⟩
abbrev S32768x1 : Shape := ⟨2, ![32768, 1]⟩
abbrev S32768x16x1 : Shape := ⟨3, ![32768, 16, 1]⟩
abbrev S32768x16x3 : Shape := ⟨3, ![32768, 16, 3]⟩
abbrev S32768x16x5 : Shape := ⟨3, ![32768, 16, 5]⟩
abbrev S32768x16x9 : Shape := ⟨3, ![32768, 16, 9]⟩
abbrev S32768x32 : Shape := ⟨2, ![32768, 32]⟩
abbrev S1x32 : Shape := ⟨2, ![1, 32]⟩
abbrev S32768x4864 : Shape := ⟨2, ![32768, 4864]⟩
abbrev S32768x16x304 : Shape := ⟨3, ![32768, 16, 304]⟩
abbrev S32768x9x171 : Shape := ⟨3, ![32768, 9, 171]⟩
abbrev S32768x16x171 : Shape := ⟨3, ![32768, 16, 171]⟩
abbrev S32768x304x9 : Shape := ⟨3, ![32768, 304, 9]⟩
abbrev S8192x16x9 : Shape := ⟨3, ![8192, 16, 9]⟩

abbrev nBuf : Space → Nat
  | .hbm => 67
  | .vmem => 0
  | .smem => 0
  | _ => 0

abbrev bufTy : (tb : Table) → Fin (tcTables nBuf tb) → BufTy
  | .hbm, ⟨0, _⟩ => ⟨S8192x16x1, .f32⟩
  | .hbm, ⟨1, _⟩ => ⟨S8192x16x3, .f32⟩
  | .hbm, ⟨2, _⟩ => ⟨S8192x16x5, .f32⟩
  | .hbm, ⟨3, _⟩ => ⟨S32768x2, .f32⟩
  | .hbm, ⟨4, _⟩ => ⟨S32768x9x19x9, .f32⟩
  | .hbm, ⟨5, _⟩ => ⟨S2x32, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S32x4864, .f32⟩
  | .hbm, ⟨10, _⟩ => ⟨S32768, .i32⟩
  | .hbm, ⟨11, _⟩ => ⟨S32768, .i32⟩
  | .hbm, ⟨12, _⟩ => ⟨S_, .i32⟩
  | .hbm, ⟨13, _⟩ => ⟨S32768, .i32⟩
  | .hbm, ⟨14, _⟩ => ⟨S32768, .i1⟩
  | .hbm, ⟨15, _⟩ => ⟨S_, .i32⟩
  | .hbm, ⟨16, _⟩ => ⟨S32768, .i32⟩
  | .hbm, ⟨17, _⟩ => ⟨S32768, .i32⟩
  | .hbm, ⟨18, _⟩ => ⟨S32768, .i32⟩
  | .hbm, ⟨19, _⟩ => ⟨S32768x1, .i32⟩
  | .hbm, ⟨20, _⟩ => ⟨S32768x16x1, .f32⟩
  | .hbm, ⟨21, _⟩ => ⟨S_, .i32⟩
  | .hbm, ⟨22, _⟩ => ⟨S32768, .i32⟩
  | .hbm, ⟨23, _⟩ => ⟨S32768, .i1⟩
  | .hbm, ⟨24, _⟩ => ⟨S_, .i32⟩
  | .hbm, ⟨25, _⟩ => ⟨S32768, .i32⟩
  | .hbm, ⟨26, _⟩ => ⟨S32768, .i32⟩
  | .hbm, ⟨27, _⟩ => ⟨S32768, .i32⟩
  | .hbm, ⟨28, _⟩ => ⟨S32768x1, .i32⟩
  | .hbm, ⟨29, _⟩ => ⟨S32768x16x3, .f32⟩
  | .hbm, ⟨30, _⟩ => ⟨S_, .i32⟩
  | .hbm, ⟨31, _⟩ => ⟨S32768, .i32⟩
  | .hbm, ⟨32, _⟩ => ⟨S32768, .i1⟩
  | .hbm, ⟨33, _⟩ => ⟨S_, .i32⟩
  | .hbm, ⟨34, _⟩ => ⟨S32768, .i32⟩
  | .hbm, ⟨35, _⟩ => ⟨S32768, .i32⟩
  | .hbm, ⟨36, _⟩ => ⟨S32768, .i32⟩
  | .hbm, ⟨37, _⟩ => ⟨S32768x1, .i32⟩
  | .hbm, ⟨38, _⟩ => ⟨S32768x16x5, .f32⟩
  | .hbm, ⟨39, _⟩ => ⟨S32768x16x9, .f32⟩
  | .hbm, ⟨40, _⟩ => ⟨S32768x32, .f32⟩
  | .hbm, ⟨41, _⟩ => ⟨S1x32, .f32⟩
  | .hbm, ⟨42, _⟩ => ⟨S32768x32, .f32⟩
  | .hbm, ⟨43, _⟩ => ⟨S32768x32, .f32⟩
  | .hbm, ⟨44, _⟩ => ⟨S_, .f32⟩
  | .hbm, ⟨45, _⟩ => ⟨S32768x32, .f32⟩
  | .hbm, ⟨46, _⟩ => ⟨S32768x32, .f32⟩
  | .hbm, ⟨47, _⟩ => ⟨S32768x32, .f32⟩
  | .hbm, ⟨48, _⟩ => ⟨S1x32, .f32⟩
  | .hbm, ⟨49, _⟩ => ⟨S32768x32, .f32⟩
  | .hbm, ⟨50, _⟩ => ⟨S32768x32, .f32⟩
  | .hbm, ⟨51, _⟩ => ⟨S_, .f32⟩
  | .hbm, ⟨52, _⟩ => ⟨S32768x32, .f32⟩
  | .hbm, ⟨53, _⟩ => ⟨S32768x32, .f32⟩
  | .hbm, ⟨54, _⟩ => ⟨S32768x4864, .f32⟩
  | .hbm, ⟨55, _⟩ => ⟨S32768x16x304, .f32⟩
  | .hbm, ⟨56, _⟩ => ⟨S32768x9x171, .f32⟩
  | .hbm, ⟨57, _⟩ => ⟨S32768x16x171, .f32⟩
  | .hbm, ⟨58, _⟩ => ⟨S32768x304x9, .f32⟩
  | .hbm, ⟨59, _⟩ => ⟨S32768x16x9, .f32⟩
  | .hbm, ⟨60, _⟩ => ⟨S_, .f32⟩
  | .hbm, ⟨61, _⟩ => ⟨S8192x16x9, .f32⟩
  | .hbm, ⟨62, _⟩ => ⟨S32768x1, .i32⟩
  | .hbm, ⟨63, _⟩ => ⟨S8192x16x9, .f32⟩
  | .hbm, ⟨64, _⟩ => ⟨S8192x16x1, .f32⟩
  | .hbm, ⟨65, _⟩ => ⟨S8192x16x3, .f32⟩
  | .hbm, ⟨66, _⟩ => ⟨S8192x16x5, .f32⟩
  | _, _ => ⟨S8192x16x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_call0_cst : Ref sig .tc := ⟨.hbm, 44, rfl⟩
abbrev main_call0_v0 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call1_cst : Ref sig .tc := ⟨.hbm, 51, rfl⟩
abbrev main_call1_v0 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩

abbrev nD : Nat := 1
abbrev τ : Topo := Topo.v7x

variable {F : FTy → Type} [FloatOps F]

class Facts₀ : Prop where
  bcast_S_S32768 : S_.BroadcastsInDim S32768 (![] : Fin 0 → Fin S32768.rank)
  bcast_S32768_S32768x1_0 : S32768.BroadcastsInDim S32768x1 (![0] : Fin 1 → Fin S32768x1.rank)
  concatenates_S32768x16x1_S32768x16x3_S32768x16x5_S32768x16x9_d2 : Shape.Concatenates [S32768x16x1, S32768x16x3, S32768x16x5] S32768x16x9 2
  bcast_S32_S1x32_1 : S32.BroadcastsInDim S1x32 (![1] : Fin 1 → Fin S1x32.rank)
  bcast_S1x32_S32768x32_0_1 : S1x32.BroadcastsInDim S32768x32 (![0, 1] : Fin 2 → Fin S32768x32.rank)
  bcast_S_S32768x32 : S_.BroadcastsInDim S32768x32 (![] : Fin 0 → Fin S32768x32.rank)
  shapeCasts_S32768x4864_S32768x16x304 : S32768x4864.ShapeCasts S32768x16x304
  shapeCasts_S32768x9x19x9_S32768x9x171 : S32768x9x19x9.ShapeCasts S32768x9x171
  shapeCasts_S32768x16x171_S32768x304x9 : S32768x16x171.ShapeCasts S32768x304x9
  bcast_S_S8192x16x9 : S_.BroadcastsInDim S8192x16x9 (![] : Fin 0 → Fin S8192x16x9.rank)
  slices_S8192x16x9_S8192x16x1_0_0_0 : S8192x16x9.Slices ![0, 0, 0] S8192x16x1
  slices_S8192x16x9_S8192x16x3_0_0_1 : S8192x16x9.Slices ![0, 0, 1] S8192x16x3
  slices_S8192x16x9_S8192x16x5_0_0_4 : S8192x16x9.Slices ![0, 0, 4] S8192x16x5
  gather_S8192x16x1_S32768x1_S32768x16x1_12_0_n_n_0_1_1161_wf : GatherDims.WF S8192x16x1 S32768x1 S32768x16x1 [1, 2] [0] [] [0] [] 1 ![1, 16, 1]
  gather_S8192x16x3_S32768x1_S32768x16x3_12_0_n_n_0_1_1163_wf : GatherDims.WF S8192x16x3 S32768x1 S32768x16x3 [1, 2] [0] [] [0] [] 1 ![1, 16, 3]
  gather_S8192x16x5_S32768x1_S32768x16x5_12_0_n_n_0_1_1165_wf : GatherDims.WF S8192x16x5 S32768x1 S32768x16x5 [1, 2] [0] [] [0] [] 1 ![1, 16, 5]
  dot_S32768x2_S2x32_S32768x32_1_0_0_1_n_n_wf : DotDims.WF S32768x2 S2x32 S32768x32 [1] [0] [0] [1] [] []
  dot_S32768x32_S32x32_S32768x32_1_0_0_1_n_n_wf : DotDims.WF S32768x32 S32x32 S32768x32 [1] [0] [0] [1] [] []
  dot_S32768x32_S32x4864_S32768x4864_1_0_0_1_n_n_wf : DotDims.WF S32768x32 S32x4864 S32768x4864 [1] [0] [0] [1] [] []
  dot_S32768x16x9_S32768x9x171_S32768x16x171_2_1_1_2_0_0_wf : DotDims.WF S32768x16x9 S32768x9x171 S32768x16x171 [2] [1] [1] [2] [0] [0]
  dot_S32768x16x304_S32768x304x9_S32768x16x9_2_1_1_2_0_0_wf : DotDims.WF S32768x16x304 S32768x304x9 S32768x16x9 [2] [1] [1] [2] [0] [0]
  scatter_S8192x16x9_S32768x1_S32768x16x9_12_0_0_1_wf : ScatterDims.WF S8192x16x9 S32768x1 S32768x16x9 [1, 2] [0] [0] 1

variable [Facts₀]

def gather_S8192x16x1_S32768x1_S32768x16x1_12_0_n_n_0_1_1161 : GatherDims S8192x16x1 S32768x1 S32768x16x1 where
  offsetDims := [1, 2]
  collapsedSliceDims := [0]
  operandBatchingDims := []
  startIndicesBatchingDims := []
  startIndexMap := [0]
  indexVectorDim := 1
  sliceSizes := ![1, 16, 1]
  wf := gather_S8192x16x1_S32768x1_S32768x16x1_12_0_n_n_0_1_1161_wf
def gather_S8192x16x3_S32768x1_S32768x16x3_12_0_n_n_0_1_1163 : GatherDims S8192x16x3 S32768x1 S32768x16x3 where
  offsetDims := [1, 2]
  collapsedSliceDims := [0]
  operandBatchingDims := []
  startIndicesBatchingDims := []
  startIndexMap := [0]
  indexVectorDim := 1
  sliceSizes := ![1, 16, 3]
  wf := gather_S8192x16x3_S32768x1_S32768x16x3_12_0_n_n_0_1_1163_wf
def gather_S8192x16x5_S32768x1_S32768x16x5_12_0_n_n_0_1_1165 : GatherDims S8192x16x5 S32768x1 S32768x16x5 where
  offsetDims := [1, 2]
  collapsedSliceDims := [0]
  operandBatchingDims := []
  startIndicesBatchingDims := []
  startIndexMap := [0]
  indexVectorDim := 1
  sliceSizes := ![1, 16, 5]
  wf := gather_S8192x16x5_S32768x1_S32768x16x5_12_0_n_n_0_1_1165_wf
def dot_S32768x2_S2x32_S32768x32_1_0_0_1_n_n : DotDims S32768x2 S2x32 S32768x32 where
  lhsContracting := [1]
  rhsContracting := [0]
  lhsNonContracting := [0]
  rhsNonContracting := [1]
  lhsBatch := []
  rhsBatch := []
  wf := dot_S32768x2_S2x32_S32768x32_1_0_0_1_n_n_wf
def dot_S32768x32_S32x32_S32768x32_1_0_0_1_n_n : DotDims S32768x32 S32x32 S32768x32 where
  lhsContracting := [1]
  rhsContracting := [0]
  lhsNonContracting := [0]
  rhsNonContracting := [1]
  lhsBatch := []
  rhsBatch := []
  wf := dot_S32768x32_S32x32_S32768x32_1_0_0_1_n_n_wf
def dot_S32768x32_S32x4864_S32768x4864_1_0_0_1_n_n : DotDims S32768x32 S32x4864 S32768x4864 where
  lhsContracting := [1]
  rhsContracting := [0]
  lhsNonContracting := [0]
  rhsNonContracting := [1]
  lhsBatch := []
  rhsBatch := []
  wf := dot_S32768x32_S32x4864_S32768x4864_1_0_0_1_n_n_wf
def dot_S32768x16x9_S32768x9x171_S32768x16x171_2_1_1_2_0_0 : DotDims S32768x16x9 S32768x9x171 S32768x16x171 where
  lhsContracting := [2]
  rhsContracting := [1]
  lhsNonContracting := [1]
  rhsNonContracting := [2]
  lhsBatch := [0]
  rhsBatch := [0]
  wf := dot_S32768x16x9_S32768x9x171_S32768x16x171_2_1_1_2_0_0_wf
def dot_S32768x16x304_S32768x304x9_S32768x16x9_2_1_1_2_0_0 : DotDims S32768x16x304 S32768x304x9 S32768x16x9 where
  lhsContracting := [2]
  rhsContracting := [1]
  lhsNonContracting := [1]
  rhsNonContracting := [2]
  lhsBatch := [0]
  rhsBatch := [0]
  wf := dot_S32768x16x304_S32768x304x9_S32768x16x9_2_1_1_2_0_0_wf
def scatter_S8192x16x9_S32768x1_S32768x16x9_12_0_0_1 : ScatterDims S8192x16x9 S32768x1 S32768x16x9 where
  updateWindowDims := [1, 2]
  insertedWindowDims := [0]
  scatterDimsToOperandDims := [0]
  indexVectorDim := 1
  wf := scatter_S8192x16x9_S32768x1_S32768x16x9_12_0_0_1_wf

class Facts : Prop extends Facts₀ where

variable [Facts]
-- ==== Proof.KernelFrame.lean ====
/-
  The frame of the program: @main is twenty-nine host operations (three gathers of node rows by `src`, joined on the
  last axis, and a regrouping of the basis), one pipelined region over 128 blocks of 256 edges, and seven host operations
  (the scatter-add over `dst` and three slices). The region's body loads its eight input blocks whole, computes, and
  stores the whole output block once; it also loads the output block before storing it and uses nothing of that load.
  So after the body every input buffer holds its block and the output buffer holds one function of the input blocks,
  `out8`; the pipeline then leaves every array of the region at what the write-backs make of it and every other buffer
  as the host operations leave it, and no host operation writes an argument array.
-/
import proofs.«138543_j74406013435996_1_alg».proof.Proof.Gen.Kernel.Launch
import proofs.«138543_j74406013435996_1_alg».proof.Proof.Gen.Kernel.Skeleton
import proofs.«138543_j74406013435996_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: the launch contents after the host operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch the region's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write none of the region's arrays: each writes its own result buffer, which is none of them. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 0, and it is none of the region's arrays: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes argument 1, and it is none of the region's arrays: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes argument 2, and it is none of the region's arrays: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the region writes argument 4, and it is none of the region's arrays: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation after the region writes argument 10, and it is none of the region's arrays: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- No host operation after the region writes argument 11, and it is none of the region's arrays: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is not
    fetched its block index has not moved), for any proof data over the region-entry arrays whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (where it is not
    fetched its block index has not moved), for any proof data over the region-entry arrays whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (where it is not
    fetched its block index has not moved), for any proof data over the region-entry arrays whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (where it is not
    fetched its block index has not moved), for any proof data over the region-entry arrays whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (where it is not
    fetched its block index has not moved), for any proof data over the region-entry arrays whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not (where it is not
    fetched its block index has not moved), for any proof data over the region-entry arrays whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not (where it is not
    fetched its block index has not moved), for any proof data over the region-entry arrays whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not (where it is not
    fetched its block index has not moved), for any proof data over the region-entry arrays whose body leaves the block in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The whole block of 256 x 16 x 9 words. -/
abbrev rOut : Rect S256x16x9 := Rect.unit (s := S256x16x9) ![0, 0, 0] S256x16x9.size inb_S256x16x9_S256x16x9_0_0_0

/-- The output window's buffer after the body, from the input blocks: its one store, of the fused product of the
    per-edge weights (from the edge features and the radial network's parameters) with the contracted basis (from the
    gathered node features and the basis block). -/
def out8 (x0 : Vec F S256x16x9 .f32) (x1 : Vec F S256x2 .f32) (x2 : Vec F S256x9x171 .f32) (x3 : Vec F S2x32 .f32) (x4 : Vec F S32 .f32) (x5 : Vec F S32x32 .f32) (x6 : Vec F S32 .f32) (x7 : Vec F S32x4864 .f32) : Vec F S256x16x9 .f32 :=
  View.canon [⟨rOut, k0_pay1 (k0_pay2 x1 x3 x4 x5 x6 x7) (k0_pay3 x0 x2) (constant (F := F) S256x16x9 .f32 0x00000000#32)⟩]

/-- The one store covers the buffer. -/
theorem cover8 (p0 : Vec F S256x16x9 .f32) (y : S256x16x9.Idx) :
    ∃ pc ∈ ([⟨rOut, p0⟩] : List (View.Piece (Elt F) S256x16x9 .f32)), y ∈ pc.1.set :=
  View.cover_of_tiled [⟨rOut, p0⟩] S256x16x9.size (by rfl) y

/-! ## The body's triple -/

set_option maxHeartbeats 1000000 in
/-- The body on whole staging buffers, the inputs' at contents `xW` and the output's at anything, runs to the
    continuation holding the inputs' as they were and the output's at `out8` of the inputs'. -/
theorem sound_kernel (c : Dev nD) (E : Set ℕ) (i : grid0.Coords)
    (arg1 : Memref sig .tc .vmem S256x16x9 .f32) (harg1 : arg1.IsWhole)
    (arg2 : Memref sig .tc .vmem S256x2 .f32) (harg2 : arg2.IsWhole)
    (arg3 : Memref sig .tc .vmem S256x9x171 .f32) (harg3 : arg3.IsWhole)
    (arg4 : Memref sig .tc .vmem S2x32 .f32) (harg4 : arg4.IsWhole)
    (arg5 : Memref sig .tc .vmem S32 .f32) (harg5 : arg5.IsWhole)
    (arg6 : Memref sig .tc .vmem S32x32 .f32) (harg6 : arg6.IsWhole)
    (arg7 : Memref sig .tc .vmem S32 .f32) (harg7 : arg7.IsWhole)
    (arg8 : Memref sig .tc .vmem S32x4864 .f32) (harg8 : arg8.IsWhole)
    (arg9 : Memref sig .tc .vmem S256x16x9 .f32) (harg9 : arg9.IsWhole)
    (x0 : Vec F S256x16x9 .f32) (x1 : Vec F S256x2 .f32) (x2 : Vec F S256x9x171 .f32) (x3 : Vec F S2x32 .f32) (x4 : Vec F S32 .f32) (x5 : Vec F S32x32 .f32) (x6 : Vec F S32 .f32) (x7 : Vec F S32x4864 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out8 x0 x1 x2 x3 x4 x5 x6 x7)) -∗ K ⟨⟩))
      ⊢ wp frame (wpE (defs₀ (F := F)) Variants.none c none) E (cc0__conv_se3_kernel i arg1 harg1 arg2 harg2 arg3 harg3 arg4 harg4 arg5 harg5 arg6 harg6 arg7 harg7 arg8 harg8 arg9 harg9) K := by
  simp only [cc0__conv_se3_kernel_eq_skeleton]; unfold cc0__conv_se3_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  rw [View.read_writes_eq_canon _ _ _ (cover8 (F := F) _)]
  sl_unfold_words
  unfold out8
  simp only [View.readAt_eq_ld, View.ld_unit_zero (S := S256x16x9) hz3, View.ld_unit_zero (S := S256x2) hz2,
    View.ld_unit_zero (S := S256x9x171) hz3, View.ld_unit_zero (S := S2x32) hz2, View.ld_unit_zero (S := S32) hz1,
    View.ld_unit_zero (S := S32x32) hz2, View.ld_unit_zero (S := S32x4864) hz2]

/-! ## The pipeline's proof data -/

/-- The proof data of the pipeline on core `c`: the arrays as the region finds them; after the body at point `t` each
    input's buffer at its block and the output's at `out8` of the input blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = out8 (iblk m c 0 t) (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' buffers hold their blocks, so `sound_kernel` applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and in every final state each
    array of the region holds what the write-backs make of it and every other unscoped buffer what the host
    operations after the region leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- In a final state of the frame run the argument arrays are as launched: the ones the region stages are inputs, never
    written back, and the region found them as launched; the others bypass the region and no host operation writes them. -/
theorem args_kept (r : PUnit × MemSt nD τ sig (Elt F))
    (h : Pipeline.FramePost cfgs (dats m) 0 (Pipeline.afterTail₀ cfgs (dats m) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).1 1).trans ((((dats m 0 c).arrAt_in 1 rfl _).trans ((A_eq m c 1).trans (V_main_arg3 m c)))),
    ((h c).2 main_arg4 (Pipeline.mem_restRefs_of main_arg4 (by decide) (by decide))).trans (W_main_arg4 m (dats m) c),
    ((h c).1 3).trans ((((dats m 0 c).arrAt_in 3 rfl _).trans ((A_eq m c 3).trans (V_main_arg5 m c)))),
    ((h c).1 4).trans ((((dats m 0 c).arrAt_in 4 rfl _).trans ((A_eq m c 4).trans (V_main_arg6 m c)))),
    ((h c).1 5).trans ((((dats m 0 c).arrAt_in 5 rfl _).trans ((A_eq m c 5).trans (V_main_arg7 m c)))),
    ((h c).1 6).trans ((((dats m 0 c).arrAt_in 6 rfl _).trans ((A_eq m c 6).trans (V_main_arg8 m c)))),
    ((h c).1 7).trans ((((dats m 0 c).arrAt_in 7 rfl _).trans ((A_eq m c 7).trans (V_main_arg9 m c)))),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c)⟩

/-- The frame: @main terminates without a fault and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => args_kept m r h c) (run_main m ρ)

end Cert.Kernel.Fr

end
-- ==== Proof.KernelIdealFrame.lean ====
/-
  The frame of the program: @main is twenty-nine host operations (three gathers of node rows by `src`, joined on the
  last axis, and a regrouping of the basis), one pipelined region over 128 blocks of 256 edges, and seven host operations
  (the scatter-add over `dst` and three slices). The region's body loads its eight input blocks whole, computes, and
  stores the whole output block once; it also loads the output block before storing it and uses nothing of that load.
  So after the body every input buffer holds its block and the output buffer holds one function of the input blocks,
  `out8`; the pipeline then leaves every array of the region at what the write-backs make of it and every other buffer
  as the host operations leave it, and no host operation writes an argument array.
-/
import proofs.«138543_j74406013435996_1_alg».proof.Proof.Gen.KernelIdeal.Launch
import proofs.«138543_j74406013435996_1_alg».proof.Proof.Gen.KernelIdeal.Skeleton
import proofs.«138543_j74406013435996_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: the launch contents after the host operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch the region's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write none of the region's arrays: each writes its own result buffer, which is none of them. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 0, and it is none of the region's arrays: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes argument 1, and it is none of the region's arrays: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes argument 2, and it is none of the region's arrays: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the region writes argument 4, and it is none of the region's arrays: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation after the region writes argument 10, and it is none of the region's arrays: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- No host operation after the region writes argument 11, and it is none of the region's arrays: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is not
    fetched its block index has not moved), for any proof data over the region-entry arrays whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (where it is not
    fetched its block index has not moved), for any proof data over the region-entry arrays whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (where it is not
    fetched its block index has not moved), for any proof data over the region-entry arrays whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (where it is not
    fetched its block index has not moved), for any proof data over the region-entry arrays whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (where it is not
    fetched its block index has not moved), for any proof data over the region-entry arrays whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not (where it is not
    fetched its block index has not moved), for any proof data over the region-entry arrays whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not (where it is not
    fetched its block index has not moved), for any proof data over the region-entry arrays whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not (where it is not
    fetched its block index has not moved), for any proof data over the region-entry arrays whose body leaves the block in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The whole block of 256 x 16 x 9 words. -/
abbrev rOut : Rect S256x16x9 := Rect.unit (s := S256x16x9) ![0, 0, 0] S256x16x9.size inb_S256x16x9_S256x16x9_0_0_0

/-- The output window's buffer after the body, from the input blocks: its one store, of the fused product of the
    per-edge weights (from the edge features and the radial network's parameters) with the contracted basis (from the
    gathered node features and the basis block). -/
def out8 (x0 : Vec F S256x16x9 .f32) (x1 : Vec F S256x2 .f32) (x2 : Vec F S256x9x171 .f32) (x3 : Vec F S2x32 .f32) (x4 : Vec F S32 .f32) (x5 : Vec F S32x32 .f32) (x6 : Vec F S32 .f32) (x7 : Vec F S32x4864 .f32) : Vec F S256x16x9 .f32 :=
  View.canon [⟨rOut, k0_pay1 (k0_pay2 x1 x3 x4 x5 x6 x7) (k0_pay3 x0 x2) (constant (F := F) S256x16x9 .f32 0x00000000#32)⟩]

/-- The one store covers the buffer. -/
theorem cover8 (p0 : Vec F S256x16x9 .f32) (y : S256x16x9.Idx) :
    ∃ pc ∈ ([⟨rOut, p0⟩] : List (View.Piece (Elt F) S256x16x9 .f32)), y ∈ pc.1.set :=
  View.cover_of_tiled [⟨rOut, p0⟩] S256x16x9.size (by rfl) y

/-! ## The body's triple -/

set_option maxHeartbeats 1000000 in
/-- The body on whole staging buffers, the inputs' at contents `xW` and the output's at anything, runs to the
    continuation holding the inputs' as they were and the output's at `out8` of the inputs'. -/
theorem sound_kernel (c : Dev nD) (E : Set ℕ) (i : grid0.Coords)
    (arg1 : Memref sig .tc .vmem S256x16x9 .f32) (harg1 : arg1.IsWhole)
    (arg2 : Memref sig .tc .vmem S256x2 .f32) (harg2 : arg2.IsWhole)
    (arg3 : Memref sig .tc .vmem S256x9x171 .f32) (harg3 : arg3.IsWhole)
    (arg4 : Memref sig .tc .vmem S2x32 .f32) (harg4 : arg4.IsWhole)
    (arg5 : Memref sig .tc .vmem S32 .f32) (harg5 : arg5.IsWhole)
    (arg6 : Memref sig .tc .vmem S32x32 .f32) (harg6 : arg6.IsWhole)
    (arg7 : Memref sig .tc .vmem S32 .f32) (harg7 : arg7.IsWhole)
    (arg8 : Memref sig .tc .vmem S32x4864 .f32) (harg8 : arg8.IsWhole)
    (arg9 : Memref sig .tc .vmem S256x16x9 .f32) (harg9 : arg9.IsWhole)
    (x0 : Vec F S256x16x9 .f32) (x1 : Vec F S256x2 .f32) (x2 : Vec F S256x9x171 .f32) (x3 : Vec F S2x32 .f32) (x4 : Vec F S32 .f32) (x5 : Vec F S32x32 .f32) (x6 : Vec F S32 .f32) (x7 : Vec F S32x4864 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out8 x0 x1 x2 x3 x4 x5 x6 x7)) -∗ K ⟨⟩))
      ⊢ wp frame (wpE (defs₀ (F := F)) Variants.none c none) E (cc0__conv_se3_kernel i arg1 harg1 arg2 harg2 arg3 harg3 arg4 harg4 arg5 harg5 arg6 harg6 arg7 harg7 arg8 harg8 arg9 harg9) K := by
  simp only [cc0__conv_se3_kernel_eq_skeleton]; unfold cc0__conv_se3_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  rw [View.read_writes_eq_canon _ _ _ (cover8 (F := F) _)]
  sl_unfold_words
  unfold out8
  simp only [View.readAt_eq_ld, View.ld_unit_zero (S := S256x16x9) hz3, View.ld_unit_zero (S := S256x2) hz2,
    View.ld_unit_zero (S := S256x9x171) hz3, View.ld_unit_zero (S := S2x32) hz2, View.ld_unit_zero (S := S32) hz1,
    View.ld_unit_zero (S := S32x32) hz2, View.ld_unit_zero (S := S32x4864) hz2]

/-! ## The pipeline's proof data -/

/-- The proof data of the pipeline on core `c`: the arrays as the region finds them; after the body at point `t` each
    input's buffer at its block and the output's at `out8` of the input blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = out8 (iblk m c 0 t) (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' buffers hold their blocks, so `sound_kernel` applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and in every final state each
    array of the region holds what the write-backs make of it and every other unscoped buffer what the host
    operations after the region leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- In a final state of the frame run the argument arrays are as launched: the ones the region stages are inputs, never
    written back, and the region found them as launched; the others bypass the region and no host operation writes them. -/
theorem args_kept (r : PUnit × MemSt nD τ sig (Elt F))
    (h : Pipeline.FramePost cfgs (dats m) 0 (Pipeline.afterTail₀ cfgs (dats m) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).1 1).trans ((((dats m 0 c).arrAt_in 1 rfl _).trans ((A_eq m c 1).trans (V_main_arg3 m c)))),
    ((h c).2 main_arg4 (Pipeline.mem_restRefs_of main_arg4 (by decide) (by decide))).trans (W_main_arg4 m (dats m) c),
    ((h c).1 3).trans ((((dats m 0 c).arrAt_in 3 rfl _).trans ((A_eq m c 3).trans (V_main_arg5 m c)))),
    ((h c).1 4).trans ((((dats m 0 c).arrAt_in 4 rfl _).trans ((A_eq m c 4).trans (V_main_arg6 m c)))),
    ((h c).1 5).trans ((((dats m 0 c).arrAt_in 5 rfl _).trans ((A_eq m c 5).trans (V_main_arg7 m c)))),
    ((h c).1 6).trans ((((dats m 0 c).arrAt_in 6 rfl _).trans ((A_eq m c 6).trans (V_main_arg8 m c)))),
    ((h c).1 7).trans ((((dats m 0 c).arrAt_in 7 rfl _).trans ((A_eq m c 7).trans (V_main_arg9 m c)))),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c)⟩

/-- The frame: @main terminates without a fault and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => args_kept m r h c) (run_main m ρ)

end Cert.KernelIdeal.Fr

end
-- ==== Proof.Rows.lean ====
/-
  The edge axis is cut into 128 blocks of 256 rows: row `p` of block `t` is edge `t * 256 + p`.
-/

namespace Cert.Rows

/-- Edge `t * 256 + p`: row `p` of the `t`-th block of 256 edges. -/
abbrev row (t : Nat) (ht : t < 128) (p : Fin 256) : Fin 32768 := ⟨t * 256 + p.val, by have := p.isLt; omega⟩

end Cert.Rows
-- ==== Proof.KernelIdealBlocks.lean ====
/-
  The arrays the region finds and its blocks, read. The gathered node features and the regrouped basis are the
  reference's own terms of the arguments; block `t` of each of the three edge-indexed arrays is rows `t * 256 ..` of
  it; the block of each of the five parameters is its whole array; and every edge lies in the output block of the point
  `edge / 256`.
-/
import proofs.«138543_j74406013435996_1_alg».proof.Proof.KernelIdealFrame
import proofs.«138543_j74406013435996_1_alg».proof.Proof.Gen.ReferenceIdeal.Read
import proofs.«138543_j74406013435996_1_alg».proof.Proof.Rows
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.KernelIdeal.Fr Cert.Rows
open Cert.ReferenceIdeal.Read (val_main_v21 val_main_v34 val_main_v37 val_main_v40 val_main_v41 val_main_v42 val_main_v43)

variable (m : (ℓ : Loc nD τ sig) → Buf (Elt Ideal) ℓ) (ρ : Dev nD → PrngReg)

/-! ## The arguments as launched -/

abbrev x0 (c : Dev nD) : Buf (Elt Ideal) ((c : Thread nD τ).loc main_arg0) := m ((c : Thread nD τ).loc main_arg0)
abbrev x1 (c : Dev nD) : Buf (Elt Ideal) ((c : Thread nD τ).loc main_arg1) := m ((c : Thread nD τ).loc main_arg1)
abbrev x2 (c : Dev nD) : Buf (Elt Ideal) ((c : Thread nD τ).loc main_arg2) := m ((c : Thread nD τ).loc main_arg2)
abbrev x3 (c : Dev nD) : Buf (Elt Ideal) ((c : Thread nD τ).loc main_arg3) := m ((c : Thread nD τ).loc main_arg3)
abbrev x4 (c : Dev nD) : Buf (Elt Ideal) ((c : Thread nD τ).loc main_arg4) := m ((c : Thread nD τ).loc main_arg4)
abbrev x5 (c : Dev nD) : Buf (Elt Ideal) ((c : Thread nD τ).loc main_arg5) := m ((c : Thread nD τ).loc main_arg5)
abbrev x6 (c : Dev nD) : Buf (Elt Ideal) ((c : Thread nD τ).loc main_arg6) := m ((c : Thread nD τ).loc main_arg6)
abbrev x7 (c : Dev nD) : Buf (Elt Ideal) ((c : Thread nD τ).loc main_arg7) := m ((c : Thread nD τ).loc main_arg7)
abbrev x8 (c : Dev nD) : Buf (Elt Ideal) ((c : Thread nD τ).loc main_arg8) := m ((c : Thread nD τ).loc main_arg8)
abbrev x9 (c : Dev nD) : Buf (Elt Ideal) ((c : Thread nD τ).loc main_arg9) := m ((c : Thread nD τ).loc main_arg9)
abbrev x10 (c : Dev nD) : Buf (Elt Ideal) ((c : Thread nD τ).loc main_arg10) := m ((c : Thread nD τ).loc main_arg10)
abbrev x11 (c : Dev nD) : Buf (Elt Ideal) ((c : Thread nD τ).loc main_arg11) := m ((c : Thread nD τ).loc main_arg11)

/-- The per-edge messages, as the reference computes them from the arguments. -/
abbrev msgs (c : Dev nD) : S32768x16x9.Idx → Elt Ideal .f32 := val_main_v37 (F := Ideal) (x0 m c) (x1 m c) (x2 m c) (x3 m c) (x4 m c) (x5 m c) (x6 m c) (x7 m c) (x8 m c) (x9 m c) (x10 m c)

theorem lt128 (t : Fin cfg0.N) : t.val < 128 := lt_of_lt_of_eq t.isLt (N_0 : cfg0.N = 128)

/-! ## The arrays the region finds -/

/-- The gathered node features: the three gathers by `src` joined on the last axis. -/
theorem V_feats (c : Dev nD) : (V m c main_v21 : S32768x16x9.Idx → Elt Ideal .f32) = val_main_v21 (F := Ideal) (x0 m c) (x1 m c) (x2 m c) (x10 m c) := by
  show StableHlo.after hostOps0 (fun b => m (c, b)) (Proc.devRef .tc main_v21) = _
  after_results
  rfl

/-- The basis with its two last axes merged. -/
theorem V_basis (c : Dev nD) : (V m c main_v22 : S32768x9x171.Idx → Elt Ideal .f32) = val_main_v34 (F := Ideal) (x4 m c) := by
  show StableHlo.after hostOps0 (fun b => m (c, b)) (Proc.devRef .tc main_v22) = _
  after_results
  rfl

/-! ## The printed index maps, decided over the grid -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, win0_2.index t (0 : Fin 3) = t.val ∧ win0_2.index t (1 : Fin 3) = 0 ∧ win0_2.index t (2 : Fin 3) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 1) = 0 :=
  (by decide +kernel : ∀ t : Fin grid0.N, win0_4.index t (0 : Fin 1) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 1) = 0 :=
  (by decide +kernel : ∀ t : Fin grid0.N, win0_6.index t (0 : Fin 1) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 3) = t.val ∧ win0_8.index t (1 : Fin 3) = 0 ∧ win0_8.index t (2 : Fin 3) = 0 :=
  (by decide +kernel : ∀ t : Fin grid0.N, win0_8.index t (0 : Fin 3) = t.val ∧ win0_8.index t (1 : Fin 3) = 0 ∧ win0_8.index t (2 : Fin 3) = 0)

/-! ## The blocks, read -/

/-- Block `t` of the gathered node features is rows `t * 256 ..` of the array. -/
theorem blk0_apply (c : Dev nD) (t : Fin cfg0.N) (p : Fin 256) (e : Fin 16) (d : Fin 9) :
    (iblk m c 0 t : Vec Ideal S256x16x9 .f32) (ix3 p e d) = (V m c main_v21 : S32768x16x9.Idx → Elt Ideal .f32) (ix3 (row t.val (lt128 t) p) e d) := by
  obtain ⟨h0, h1, h2⟩ := idx0 t
  unfold iblk
  rw [View.read_apply]
  show V m c main_v21 _ = V m c main_v21 _
  congr 1
  funext a
  apply Fin.ext
  match a with
  | ⟨0, _⟩ => show win0_0.index t 0 * 256 + 1 * p.val = t.val * 256 + p.val; rw [h0]; omega
  | ⟨1, _⟩ => show win0_0.index t 1 * 16 + 1 * e.val = e.val; rw [h1]; omega
  | ⟨2, _⟩ => show win0_0.index t 2 * 9 + 1 * d.val = d.val; rw [h2]; omega

/-- Block `t` of the edge features is rows `t * 256 ..` of the array. -/
theorem blk1_apply (c : Dev nD) (t : Fin cfg0.N) (p : Fin 256) (a' : Fin 2) :
    (iblk m c 1 t : Vec Ideal S256x2 .f32) (ix2 p a') = (V m c main_arg3 : S32768x2.Idx → Elt Ideal .f32) (ix2 (row t.val (lt128 t) p) a') := by
  obtain ⟨h0, h1⟩ := idx1 t
  unfold iblk
  rw [View.read_apply]
  show V m c main_arg3 _ = V m c main_arg3 _
  congr 1
  funext a
  apply Fin.ext
  match a with
  | ⟨0, _⟩ => show win0_1.index t 0 * 256 + 1 * p.val = t.val * 256 + p.val; rw [h0]; omega
  | ⟨1, _⟩ => show win0_1.index t 1 * 2 + 1 * a'.val = a'.val; rw [h1]; omega

/-- Block `t` of the regrouped basis is rows `t * 256 ..` of the array. -/
theorem blk2_apply (c : Dev nD) (t : Fin cfg0.N) (p : Fin 256) (d : Fin 9) (x : Fin 171) :
    (iblk m c 2 t : Vec Ideal S256x9x171 .f32) (ix3 p d x) = (V m c main_v22 : S32768x9x171.Idx → Elt Ideal .f32) (ix3 (row t.val (lt128 t) p) d x) := by
  obtain ⟨h0, h1, h2⟩ := idx2 t
  unfold iblk
  rw [View.read_apply]
  show V m c main_v22 _ = V m c main_v22 _
  congr 1
  funext a
  apply Fin.ext
  match a with
  | ⟨0, _⟩ => show win0_2.index t 0 * 256 + 1 * p.val = t.val * 256 + p.val; rw [h0]; omega
  | ⟨1, _⟩ => show win0_2.index t 1 * 9 + 1 * d.val = d.val; rw [h1]; omega
  | ⟨2, _⟩ => show win0_2.index t 2 * 171 + 1 * x.val = x.val; rw [h2]; omega

/-- The block of each parameter is its whole array, at every point. -/
theorem blk3_eq (c : Dev nD) (t : Fin cfg0.N) : (iblk m c 3 t : Vec Ideal S2x32 .f32) = (x5 m c) := by
  obtain ⟨h0, h1⟩ := idx3 t
  refine Eq.trans ?_ (V_main_arg5 m c)
  funext y
  unfold iblk
  rw [View.read_apply]
  show V m c main_arg5 _ = V m c main_arg5 y
  congr 1
  funext a
  apply Fin.ext
  match a with
  | ⟨0, _⟩ => show win0_3.index t 0 * 2 + 1 * (y 0).val = (y 0).val; rw [h0]; omega
  | ⟨1, _⟩ => show win0_3.index t 1 * 32 + 1 * (y 1).val = (y 1).val; rw [h1]; omega
theorem blk4_eq (c : Dev nD) (t : Fin cfg0.N) : (iblk m c 4 t : Vec Ideal S32 .f32) = (x6 m c) := by
  have h0 := idx4 t
  refine Eq.trans ?_ (V_main_arg6 m c)
  funext y
  unfold iblk
  rw [View.read_apply]
  show V m c main_arg6 _ = V m c main_arg6 y
  congr 1
  funext a
  apply Fin.ext
  match a with
  | ⟨0, _⟩ => show win0_4.index t 0 * 32 + 1 * (y 0).val = (y 0).val; rw [h0]; omega
theorem blk5_eq (c : Dev nD) (t : Fin cfg0.N) : (iblk m c 5 t : Vec Ideal S32x32 .f32) = (x7 m c) := by
  obtain ⟨h0, h1⟩ := idx5 t
  refine Eq.trans ?_ (V_main_arg7 m c)
  funext y
  unfold iblk
  rw [View.read_apply]
  show V m c main_arg7 _ = V m c main_arg7 y
  congr 1
  funext a
  apply Fin.ext
  match a with
  | ⟨0, _⟩ => show win0_5.index t 0 * 32 + 1 * (y 0).val = (y 0).val; rw [h0]; omega
  | ⟨1, _⟩ => show win0_5.index t 1 * 32 + 1 * (y 1).val = (y 1).val; rw [h1]; omega
theorem blk6_eq (c : Dev nD) (t : Fin cfg0.N) : (iblk m c 6 t : Vec Ideal S32 .f32) = (x8 m c) := by
  have h0 := idx6 t
  refine Eq.trans ?_ (V_main_arg8 m c)
  funext y
  unfold iblk
  rw [View.read_apply]
  show V m c main_arg8 _ = V m c main_arg8 y
  congr 1
  funext a
  apply Fin.ext
  match a with
  | ⟨0, _⟩ => show win0_6.index t 0 * 32 + 1 * (y 0).val = (y 0).val; rw [h0]; omega
theorem blk7_eq (c : Dev nD) (t : Fin cfg0.N) : (iblk m c 7 t : Vec Ideal S32x4864 .f32) = (x9 m c) := by
  obtain ⟨h0, h1⟩ := idx7 t
  refine Eq.trans ?_ (V_main_arg9 m c)
  funext y
  unfold iblk
  rw [View.read_apply]
  show V m c main_arg9 _ = V m c main_arg9 y
  congr 1
  funext a
  apply Fin.ext
  match a with
  | ⟨0, _⟩ => show win0_7.index t 0 * 32 + 1 * (y 0).val = (y 0).val; rw [h0]; omega
  | ⟨1, _⟩ => show win0_7.index t 1 * 4864 + 1 * (y 1).val = (y 1).val; rw [h1]; omega

/-- Every edge is in the block of the point `edge / 256`. -/
theorem covered (i : S32768x16x9.Idx) : ∃ t : Fin cfg0.N, (cfg0.win 8).flush t = true ∧ i ∈ ((cfg0.win 8).blk t).view.set := by
  have hi0 : (i 0).val < 32768 := (i 0).isLt
  have hi1 : (i 1).val < 16 := (i 1).isLt
  have hi2 : (i 2).val < 9 := (i 2).isLt
  let t : Fin cfg0.N := ⟨(i 0).val / 256, by rw [show cfg0.N = 128 from N_0]; omega⟩
  obtain ⟨h0, h1, h2⟩ := idx8 t
  have ht : t.val = (i 0).val / 256 := rfl
  refine ⟨t, flush0_8 t, ?_⟩
  show i ∈ ((View.whole main_v23).slice (win0_8.rect t)).set
  rw [View.set_slice_whole, Rect.mem_set_unit]
  intro a
  match a with
  | ⟨0, _⟩ => show win0_8.index t 0 * 256 ≤ (i 0).val ∧ (i 0).val < win0_8.index t 0 * 256 + 256; rw [h0, ht]; omega
  | ⟨1, _⟩ => show win0_8.index t 1 * 16 ≤ (i 1).val ∧ (i 1).val < win0_8.index t 1 * 16 + 16; rw [h1]; omega
  | ⟨2, _⟩ => show win0_8.index t 2 * 9 ≤ (i 2).val ∧ (i 2).val < win0_8.index t 2 * 9 + 9; rw [h2]; omega

end Cert.KernelIdeal.Val

end
-- ==== Proof.Radial.lean ====
/-
  The radial network of one block of 256 edges is the radial network of all edges read at the block's rows:
  each of the three products contracts an axis other than the edge axis, the bias and the clamp at zero act entry by
  entry, and the split of the 4864 outputs of an edge into 16 x 304 does not mix edges.
-/
import proofs.«138543_j74406013435996_1_alg».proof.Proof.Gen.KernelIdeal.Skeleton
import proofs.«138543_j74406013435996_1_alg».proof.Proof.Gen.ReferenceIdeal.Read
import proofs.«138543_j74406013435996_1_alg».proof.Proof.Rows
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx Cert.Rows

namespace Cert.KernelIdeal.Radial

open Cert.KernelIdeal Cert.KernelIdeal.Gen

/-! ### The product `[256, 2] x [2, 32]` of a block, read at an index -/

private theorem lhs1_0 (i : S256x32.Idx) (q : dot_S256x2_S2x32_S256x32_1_0_0_1_n_n.contr.Idx) :
    (dot_S256x2_S2x32_S256x32_1_0_0_1_n_n.lhsIdx i q 0).val = (i 0).val := by
  unfold DotDims.lhsIdx
  rw [dif_neg (show ¬(0 : Fin S256x2.rank) ∈ dot_S256x2_S2x32_S256x32_1_0_0_1_n_n.lhsBatch by decide), dif_pos (show (0 : Fin S256x2.rank) ∈ dot_S256x2_S2x32_S256x32_1_0_0_1_n_n.lhsNonContracting by decide)]
  rfl
private theorem lhs1_1 (i : S256x32.Idx) (q : dot_S256x2_S2x32_S256x32_1_0_0_1_n_n.contr.Idx) :
    (dot_S256x2_S2x32_S256x32_1_0_0_1_n_n.lhsIdx i q 1).val = (q ⟨0, by decide⟩).val :=
  dot_S256x2_S2x32_S256x32_1_0_0_1_n_n.lhsIdx_val_of_single rfl i q
private theorem rhs1_0 (i : S256x32.Idx) (q : dot_S256x2_S2x32_S256x32_1_0_0_1_n_n.contr.Idx) :
    (dot_S256x2_S2x32_S256x32_1_0_0_1_n_n.rhsIdx i q 0).val = (q ⟨0, by decide⟩).val :=
  dot_S256x2_S2x32_S256x32_1_0_0_1_n_n.rhsIdx_val_of_single rfl i q
private theorem rhs1_1 (i : S256x32.Idx) (q : dot_S256x2_S2x32_S256x32_1_0_0_1_n_n.contr.Idx) :
    (dot_S256x2_S2x32_S256x32_1_0_0_1_n_n.rhsIdx i q 1).val = (i 1).val := by
  unfold DotDims.rhsIdx
  rw [dif_neg (show ¬(1 : Fin S2x32.rank) ∈ dot_S256x2_S2x32_S256x32_1_0_0_1_n_n.rhsBatch by decide), dif_pos (show (1 : Fin S2x32.rank) ∈ dot_S256x2_S2x32_S256x32_1_0_0_1_n_n.rhsNonContracting by decide)]
  rfl

/-- Into a zero accumulator, the entry `(p, n)` of the product is the sum over the contracted axis of row `p` of the
    left operand times column `n` of the right one. -/
private theorem kdot1_apply {φ₁ φ₂ : FTy} (l : FVec Ideal S256x2 φ₁) (r : FVec Ideal S2x32 φ₂) (p : Fin 256) (n : Fin 32) :
    matmul (F := Ideal) dot_S256x2_S2x32_S256x32_1_0_0_1_n_n none l r (constant S256x32 .f32 0x00000000#32) (ix2 p n)
      = ∑ k : Fin 2, l (ix2 p k) * r (ix2 k n) := by
  simp only [matmul]
  rw [Ideal.matmul_constant_zero_apply, ← Equiv.sum_comp (ValueIdx.contrEquiv1 dot_S256x2_S2x32_S256x32_1_0_0_1_n_n 2 rfl rfl).symm]
  refine Finset.sum_congr rfl fun k _ => ?_
  have hk := ValueIdx.contrEquiv1_symm_val dot_S256x2_S2x32_S256x32_1_0_0_1_n_n 2 rfl rfl k
  have el : dot_S256x2_S2x32_S256x32_1_0_0_1_n_n.lhsIdx (ix2 p n) ((ValueIdx.contrEquiv1 dot_S256x2_S2x32_S256x32_1_0_0_1_n_n 2 rfl rfl).symm k) = ix2 p k := funext fun a => Fin.ext (by
    match a with
    | ⟨0, _⟩ => exact lhs1_0 _ _
    | ⟨1, _⟩ => exact (lhs1_1 _ _).trans hk)
  have er : dot_S256x2_S2x32_S256x32_1_0_0_1_n_n.rhsIdx (ix2 p n) ((ValueIdx.contrEquiv1 dot_S256x2_S2x32_S256x32_1_0_0_1_n_n 2 rfl rfl).symm k) = ix2 k n := funext fun a => Fin.ext (by
    match a with
    | ⟨0, _⟩ => exact (rhs1_0 _ _).trans hk
    | ⟨1, _⟩ => exact rhs1_1 _ _)
  rw [el, er]

/-! ### The product `[256, 32] x [32, 32]` of a block, read at an index -/

private theorem lhs2_0 (i : S256x32.Idx) (q : dot_S256x32_S32x32_S256x32_1_0_0_1_n_n.contr.Idx) :
    (dot_S256x32_S32x32_S256x32_1_0_0_1_n_n.lhsIdx i q 0).val = (i 0).val := by
  unfold DotDims.lhsIdx
  rw [dif_neg (show ¬(0 : Fin S256x32.rank) ∈ dot_S256x32_S32x32_S256x32_1_0_0_1_n_n.lhsBatch by decide), dif_pos (show (0 : Fin S256x32.rank) ∈ dot_S256x32_S32x32_S256x32_1_0_0_1_n_n.lhsNonContracting by decide)]
  rfl
private theorem lhs2_1 (i : S256x32.Idx) (q : dot_S256x32_S32x32_S256x32_1_0_0_1_n_n.contr.Idx) :
    (dot_S256x32_S32x32_S256x32_1_0_0_1_n_n.lhsIdx i q 1).val = (q ⟨0, by decide⟩).val :=
  dot_S256x32_S32x32_S256x32_1_0_0_1_n_n.lhsIdx_val_of_single rfl i q
private theorem rhs2_0 (i : S256x32.Idx) (q : dot_S256x32_S32x32_S256x32_1_0_0_1_n_n.contr.Idx) :
    (dot_S256x32_S32x32_S256x32_1_0_0_1_n_n.rhsIdx i q 0).val = (q ⟨0, by decide⟩).val :=
  dot_S256x32_S32x32_S256x32_1_0_0_1_n_n.rhsIdx_val_of_single rfl i q
private theorem rhs2_1 (i : S256x32.Idx) (q : dot_S256x32_S32x32_S256x32_1_0_0_1_n_n.contr.Idx) :
    (dot_S256x32_S32x32_S256x32_1_0_0_1_n_n.rhsIdx i q 1).val = (i 1).val := by
  unfold DotDims.rhsIdx
  rw [dif_neg (show ¬(1 : Fin S32x32.rank) ∈ dot_S256x32_S32x32_S256x32_1_0_0_1_n_n.rhsBatch by decide), dif_pos (show (1 : Fin S32x32.rank) ∈ dot_S256x32_S32x32_S256x32_1_0_0_1_n_n.rhsNonContracting by decide)]
  rfl

/-- Into a zero accumulator, the entry `(p, n)` of the product is the sum over the contracted axis of row `p` of the
    left operand times column `n` of the right one. -/
private theorem kdot2_apply {φ₁ φ₂ : FTy} (l : FVec Ideal S256x32 φ₁) (r : FVec Ideal S32x32 φ₂) (p : Fin 256) (n : Fin 32) :
    matmul (F := Ideal) dot_S256x32_S32x32_S256x32_1_0_0_1_n_n none l r (constant S256x32 .f32 0x00000000#32) (ix2 p n)
      = ∑ k : Fin 32, l (ix2 p k) * r (ix2 k n) := by
  simp only [matmul]
  rw [Ideal.matmul_constant_zero_apply, ← Equiv.sum_comp (ValueIdx.contrEquiv1 dot_S256x32_S32x32_S256x32_1_0_0_1_n_n 32 rfl rfl).symm]
  refine Finset.sum_congr rfl fun k _ => ?_
  have hk := ValueIdx.contrEquiv1_symm_val dot_S256x32_S32x32_S256x32_1_0_0_1_n_n 32 rfl rfl k
  have el : dot_S256x32_S32x32_S256x32_1_0_0_1_n_n.lhsIdx (ix2 p n) ((ValueIdx.contrEquiv1 dot_S256x32_S32x32_S256x32_1_0_0_1_n_n 32 rfl rfl).symm k) = ix2 p k := funext fun a => Fin.ext (by
    match a with
    | ⟨0, _⟩ => exact lhs2_0 _ _
    | ⟨1, _⟩ => exact (lhs2_1 _ _).trans hk)
  have er : dot_S256x32_S32x32_S256x32_1_0_0_1_n_n.rhsIdx (ix2 p n) ((ValueIdx.contrEquiv1 dot_S256x32_S32x32_S256x32_1_0_0_1_n_n 32 rfl rfl).symm k) = ix2 k n := funext fun a => Fin.ext (by
    match a with
    | ⟨0, _⟩ => exact (rhs2_0 _ _).trans hk
    | ⟨1, _⟩ => exact rhs2_1 _ _)
  rw [el, er]

/-! ### The product `[256, 32] x [32, 4864]` of a block, read at an index -/

private theorem lhs3_0 (i : S256x4864.Idx) (q : dot_S256x32_S32x4864_S256x4864_1_0_0_1_n_n.contr.Idx) :
    (dot_S256x32_S32x4864_S256x4864_1_0_0_1_n_n.lhsIdx i q 0).val = (i 0).val := by
  unfold DotDims.lhsIdx
  rw [dif_neg (show ¬(0 : Fin S256x32.rank) ∈ dot_S256x32_S32x4864_S256x4864_1_0_0_1_n_n.lhsBatch by decide), dif_pos (show (0 : Fin S256x32.rank) ∈ dot_S256x32_S32x4864_S256x4864_1_0_0_1_n_n.lhsNonContracting by decide)]
  rfl
private theorem lhs3_1 (i : S256x4864.Idx) (q : dot_S256x32_S32x4864_S256x4864_1_0_0_1_n_n.contr.Idx) :
    (dot_S256x32_S32x4864_S256x4864_1_0_0_1_n_n.lhsIdx i q 1).val = (q ⟨0, by decide⟩).val :=
  dot_S256x32_S32x4864_S256x4864_1_0_0_1_n_n.lhsIdx_val_of_single rfl i q
private theorem rhs3_0 (i : S256x4864.Idx) (q : dot_S256x32_S32x4864_S256x4864_1_0_0_1_n_n.contr.Idx) :
    (dot_S256x32_S32x4864_S256x4864_1_0_0_1_n_n.rhsIdx i q 0).val = (q ⟨0, by decide⟩).val :=
  dot_S256x32_S32x4864_S256x4864_1_0_0_1_n_n.rhsIdx_val_of_single rfl i q
private theorem rhs3_1 (i : S256x4864.Idx) (q : dot_S256x32_S32x4864_S256x4864_1_0_0_1_n_n.contr.Idx) :
    (dot_S256x32_S32x4864_S256x4864_1_0_0_1_n_n.rhsIdx i q 1).val = (i 1).val := by
  unfold DotDims.rhsIdx
  rw [dif_neg (show ¬(1 : Fin S32x4864.rank) ∈ dot_S256x32_S32x4864_S256x4864_1_0_0_1_n_n.rhsBatch by decide), dif_pos (show (1 : Fin S32x4864.rank) ∈ dot_S256x32_S32x4864_S256x4864_1_0_0_1_n_n.rhsNonContracting by decide)]
  rfl

/-- Into a zero accumulator, the entry `(p, n)` of the product is the sum over the contracted axis of row `p` of the
    left operand times column `n` of the right one. -/
private theorem kdot3_apply {φ₁ φ₂ : FTy} (l : FVec Ideal S256x32 φ₁) (r : FVec Ideal S32x4864 φ₂) (p : Fin 256) (n : Fin 4864) :
    matmul (F := Ideal) dot_S256x32_S32x4864_S256x4864_1_0_0_1_n_n none l r (constant S256x4864 .f32 0x00000000#32) (ix2 p n)
      = ∑ k : Fin 32, l (ix2 p k) * r (ix2 k n) := by
  simp only [matmul]
  rw [Ideal.matmul_constant_zero_apply, ← Equiv.sum_comp (ValueIdx.contrEquiv1 dot_S256x32_S32x4864_S256x4864_1_0_0_1_n_n 32 rfl rfl).symm]
  refine Finset.sum_congr rfl fun k _ => ?_
  have hk := ValueIdx.contrEquiv1_symm_val dot_S256x32_S32x4864_S256x4864_1_0_0_1_n_n 32 rfl rfl k
  have el : dot_S256x32_S32x4864_S256x4864_1_0_0_1_n_n.lhsIdx (ix2 p n) ((ValueIdx.contrEquiv1 dot_S256x32_S32x4864_S256x4864_1_0_0_1_n_n 32 rfl rfl).symm k) = ix2 p k := funext fun a => Fin.ext (by
    match a with
    | ⟨0, _⟩ => exact lhs3_0 _ _
    | ⟨1, _⟩ => exact (lhs3_1 _ _).trans hk)
  have er : dot_S256x32_S32x4864_S256x4864_1_0_0_1_n_n.rhsIdx (ix2 p n) ((ValueIdx.contrEquiv1 dot_S256x32_S32x4864_S256x4864_1_0_0_1_n_n 32 rfl rfl).symm k) = ix2 k n := funext fun a => Fin.ext (by
    match a with
    | ⟨0, _⟩ => exact (rhs3_0 _ _).trans hk
    | ⟨1, _⟩ => exact rhs3_1 _ _)
  rw [el, er]

/-! ### The bias row and the split of an edge's outputs, read at an index -/

/-- A bias vector viewed as one row and repeated over the 256 rows of a block reads, at `(p, n)`, its entry `n`. -/
private theorem bias_apply (b : FVec Ideal S32 .f32) (p : Fin 256) (n : Fin 32) :
    broadcastTo S256x32 (shapeCast S1x32 b shapeCasts_S32_S1x32) broadcasts_S1x32_S256x32 (ix2 p n) = b (ix1 n) :=
  (broadcastTo_1b_ab_apply _ _ p n).trans (shapeCast_a_1a_apply b _ 0 n)

/-- Splitting the 4864 outputs of each row into 16 x 304 keeps the row: entry `(p, i, j)` is entry `(p, i * 304 + j)`. -/
private theorem ksplit_apply {α : Type} (y : S256x4864.Idx → α) (p : Fin 256) (i : Fin 16) (j : Fin 304)
    (hc : i.val * 304 + j.val < 4864) :
    shapeCast S256x16x304 y shapeCasts_S256x4864_S256x16x304 (ix3 p i j) = y (ix2 p ⟨i.val * 304 + j.val, hc⟩) :=
  shapeCast_apply y _ _ _ (by
    rw [Shape.rowMajor_val_two, Shape.rowMajor_val_three]
    show p.val * 4864 + (i.val * 304 + j.val) = (p.val * 16 + i.val) * 304 + j.val
    omega)

section Reference
open Cert.ReferenceIdeal.Read

/-! ### The reference's operations, read at explicit coordinates -/

private theorem ref22 (x3 : FVec Ideal Cert.ReferenceIdeal.S32768x2 .f32) (x5 : FVec Ideal S2x32 .f32) (r : Fin 32768) (n : Fin 32) :
    val_main_v22 (F := Ideal) x3 x5 (ix2 r n) = ∑ k : Fin 2, x3 (ix2 r k) * x5 (ix2 k n) := by
  refine (val_main_v22_apply x3 x5 (ix2 r n)).trans (Finset.sum_congr rfl fun k _ => ?_)
  have el : lidx_main_v22 (ix2 r n) k = ix2 r k := funext fun a => by
    match a with
    | ⟨0, _⟩ => rfl
    | ⟨1, _⟩ => rfl
  have er : ridx_main_v22 (ix2 r n) k = ix2 k n := funext fun a => by
    match a with
    | ⟨0, _⟩ => rfl
    | ⟨1, _⟩ => rfl
  rw [el, er]

private theorem ref24 (x6 : FVec Ideal S32 .f32) (r : Fin 32768) (n : Fin 32) :
    val_main_v24 (F := Ideal) x6 (ix2 r n) = x6 (ix1 n) := by
  rw [val_main_v24_apply, val_main_v23_apply]
  exact congrArg x6 (funext fun a => by
    match a with
    | ⟨0, _⟩ => rfl)

private theorem refzero0 (i : Cert.ReferenceIdeal.S32768x32.Idx) : val_main_call0_v0 (F := Ideal) i = (0 : EReal) := by
  rw [val_main_call0_v0_apply, val_main_call0_cst_apply]
  exact Ideal.ofBits_zero_f32

end Reference

section Reference2
open Cert.ReferenceIdeal.Read

private theorem ref27 (x3 : FVec Ideal Cert.ReferenceIdeal.S32768x2 .f32) (x5 : FVec Ideal S2x32 .f32) (x6 : FVec Ideal S32 .f32)
    (x7 : FVec Ideal S32x32 .f32) (r : Fin 32768) (n : Fin 32) :
    val_main_v27 (F := Ideal) x3 x5 x6 x7 (ix2 r n)
      = ∑ k : Fin 32, val_main_v26 (F := Ideal) x3 x5 x6 (ix2 r k) * x7 (ix2 k n) := by
  refine (val_main_v27_apply x3 x5 x6 x7 (ix2 r n)).trans (Finset.sum_congr rfl fun k _ => ?_)
  have el : lidx_main_v27 (ix2 r n) k = ix2 r k := funext fun a => by
    match a with
    | ⟨0, _⟩ => rfl
    | ⟨1, _⟩ => rfl
  have er : ridx_main_v27 (ix2 r n) k = ix2 k n := funext fun a => by
    match a with
    | ⟨0, _⟩ => rfl
    | ⟨1, _⟩ => rfl
  rw [el, er]

private theorem ref29 (x8 : FVec Ideal S32 .f32) (r : Fin 32768) (n : Fin 32) :
    val_main_v29 (F := Ideal) x8 (ix2 r n) = x8 (ix1 n) := by
  rw [val_main_v29_apply, val_main_v28_apply]
  exact congrArg x8 (funext fun a => by
    match a with
    | ⟨0, _⟩ => rfl)

private theorem refzero1 (i : Cert.ReferenceIdeal.S32768x32.Idx) : val_main_call1_v0 (F := Ideal) i = (0 : EReal) := by
  rw [val_main_call1_v0_apply, val_main_call1_cst_apply]
  exact Ideal.ofBits_zero_f32

private theorem ref32 (x3 : FVec Ideal Cert.ReferenceIdeal.S32768x2 .f32) (x5 : FVec Ideal S2x32 .f32) (x6 : FVec Ideal S32 .f32)
    (x7 : FVec Ideal S32x32 .f32) (x8 : FVec Ideal S32 .f32) (x9 : FVec Ideal S32x4864 .f32) (r : Fin 32768) (c : Fin 4864) :
    val_main_v32 (F := Ideal) x3 x5 x6 x7 x8 x9 (ix2 r c)
      = ∑ k : Fin 32, val_main_v31 (F := Ideal) x3 x5 x6 x7 x8 (ix2 r k) * x9 (ix2 k c) := by
  refine (val_main_v32_apply x3 x5 x6 x7 x8 x9 (ix2 r c)).trans (Finset.sum_congr rfl fun k _ => ?_)
  have el : lidx_main_v32 (ix2 r c) k = ix2 r k := funext fun a => by
    match a with
    | ⟨0, _⟩ => rfl
    | ⟨1, _⟩ => rfl
  have er : ridx_main_v32 (ix2 r c) k = ix2 k c := funext fun a => by
    match a with
    | ⟨0, _⟩ => rfl
    | ⟨1, _⟩ => rfl
  rw [el, er]

/-- The reference's split of an edge's 4864 outputs into 16 x 304 keeps the edge. -/
private theorem refsplit (x3 : FVec Ideal Cert.ReferenceIdeal.S32768x2 .f32) (x5 : FVec Ideal S2x32 .f32) (x6 : FVec Ideal S32 .f32)
    (x7 : FVec Ideal S32x32 .f32) (x8 : FVec Ideal S32 .f32) (x9 : FVec Ideal S32x4864 .f32) (r : Fin 32768) (i : Fin 16) (j : Fin 304)
    (hc : i.val * 304 + j.val < 4864) :
    val_main_v33 (F := Ideal) x3 x5 x6 x7 x8 x9 (ix3 r i j)
      = val_main_v32 (F := Ideal) x3 x5 x6 x7 x8 x9 (ix2 r ⟨i.val * 304 + j.val, hc⟩) := by
  have hr := r.isLt
  have hi := i.isLt
  have hj := j.isLt
  have e : idx_main_v33 (ix3 r i j) = ix2 r ⟨i.val * 304 + j.val, hc⟩ := funext fun a => Fin.ext (by
    match a with
    | ⟨0, _⟩ =>
      show ((r.val * 16 + i.val) * 304 + j.val) / 4864 = r.val
      omega
    | ⟨1, _⟩ =>
      show ((r.val * 16 + i.val) * 304 + j.val) % 4864 = i.val * 304 + j.val
      omega)
  rw [val_main_v33_apply]
  generalize val_main_v32 (F := Ideal) x3 x5 x6 x7 x8 x9 = y
  rw [e]

end Reference2

/-! ### The three layers of a block against the reference's -/

/-- The first hidden layer of a block: features times weights, plus the bias row, clamped at zero. -/
private def hid1 (X1 : FVec Ideal S256x2 .f32) (x5 : FVec Ideal S2x32 .f32) (x6 : FVec Ideal S32 .f32) : FVec Ideal S256x32 .f32 :=
  maximumf
    (addf
      (matmul (F := Ideal) dot_S256x2_S2x32_S256x32_1_0_0_1_n_n none (truncf .bf16 X1 bitsLt_bf16_f32) (truncf .bf16 x5 bitsLt_bf16_f32)
        (constant S256x32 .f32 0x00000000#32))
      (broadcastTo S256x32 (shapeCast S1x32 x6 shapeCasts_S32_S1x32) broadcasts_S1x32_S256x32))
    (broadcast S256x32 (Scalar.ofBits (F := Ideal) .f32 0x00000000#32))

/-- The second hidden layer of a block, from the first. -/
private def hid2 (H : FVec Ideal S256x32 .f32) (x7 : FVec Ideal S32x32 .f32) (x8 : FVec Ideal S32 .f32) : FVec Ideal S256x32 .f32 :=
  maximumf
    (addf
      (matmul (F := Ideal) dot_S256x32_S32x32_S256x32_1_0_0_1_n_n none (truncf .bf16 H bitsLt_bf16_f32) (truncf .bf16 x7 bitsLt_bf16_f32)
        (constant S256x32 .f32 0x00000000#32))
      (broadcastTo S256x32 (shapeCast S1x32 x8 shapeCasts_S32_S1x32) broadcasts_S1x32_S256x32))
    (broadcast S256x32 (Scalar.ofBits (F := Ideal) .f32 0x00000000#32))

section Layers
open Cert.ReferenceIdeal.Read

/-- Row `p` of the block's first hidden layer is edge `t * 256 + p` of the reference's: the product contracts the
    feature axis, so it reads only row `p` of the block, which is that edge's row. -/
private theorem layer1 (t : Nat) (ht : t < 128) (X1 : FVec Ideal S256x2 .f32) (x3 : FVec Ideal Cert.ReferenceIdeal.S32768x2 .f32)
    (x5 : FVec Ideal S2x32 .f32) (x6 : FVec Ideal S32 .f32)
    (h1 : ∀ (p : Fin 256) (a : Fin 2), X1 (ix2 p a) = x3 (ix2 (row t ht p) a)) (p : Fin 256) (n : Fin 32) :
    hid1 X1 x5 x6 (ix2 p n) = val_main_v26 (F := Ideal) x3 x5 x6 (ix2 (row t ht p) n) := by
  have hs : (∑ k : Fin 2, X1 (ix2 p k) * x5 (ix2 k n)) = ∑ k : Fin 2, x3 (ix2 (row t ht p) k) * x5 (ix2 k n) :=
    Finset.sum_congr rfl fun k _ => by rw [h1]
  rw [val_main_v26_apply, val_main_v25_apply, ref22, ref24, refzero0]
  unfold hid1
  rw [maximumf_apply, addf_apply, kdot1_apply, bias_apply, broadcast_apply]
  show max ((∑ k : Fin 2, X1 (ix2 p k) * x5 (ix2 k n)) + x6 (ix1 n)) (Ideal.ofBits .f32 0x00000000#32)
    = max ((∑ k : Fin 2, x3 (ix2 (row t ht p) k) * x5 (ix2 k n)) + x6 (ix1 n)) 0
  rw [hs, Ideal.ofBits_zero_f32]

/-- The same one layer on: whatever block layer `H` agrees row by row with the reference's first hidden layer, the
    second hidden layer built on it agrees with the reference's second. -/
private theorem layer2 (t : Nat) (ht : t < 128) (H : FVec Ideal S256x32 .f32) (x3 : FVec Ideal Cert.ReferenceIdeal.S32768x2 .f32)
    (x5 : FVec Ideal S2x32 .f32) (x6 : FVec Ideal S32 .f32) (x7 : FVec Ideal S32x32 .f32) (x8 : FVec Ideal S32 .f32)
    (hH : ∀ (p : Fin 256) (n : Fin 32), H (ix2 p n) = val_main_v26 (F := Ideal) x3 x5 x6 (ix2 (row t ht p) n))
    (p : Fin 256) (n : Fin 32) :
    hid2 H x7 x8 (ix2 p n) = val_main_v31 (F := Ideal) x3 x5 x6 x7 x8 (ix2 (row t ht p) n) := by
  have hs : (∑ k : Fin 32, H (ix2 p k) * x7 (ix2 k n))
      = ∑ k : Fin 32, val_main_v26 (F := Ideal) x3 x5 x6 (ix2 (row t ht p) k) * x7 (ix2 k n) :=
    Finset.sum_congr rfl fun k _ => by rw [hH]
  rw [val_main_v31_apply, val_main_v30_apply, ref27, ref29, refzero1]
  unfold hid2
  rw [maximumf_apply, addf_apply, kdot2_apply, bias_apply, broadcast_apply]
  show max ((∑ k : Fin 32, H (ix2 p k) * x7 (ix2 k n)) + x8 (ix1 n)) (Ideal.ofBits .f32 0x00000000#32)
    = max ((∑ k : Fin 32, val_main_v26 (F := Ideal) x3 x5 x6 (ix2 (row t ht p) k) * x7 (ix2 k n)) + x8 (ix1 n)) 0
  rw [hs, Ideal.ofBits_zero_f32]

/-- The output product: on a block layer that agrees row by row with the reference's second hidden layer, it gives
    the reference's 4864 outputs of each of the block's edges. -/
private theorem layer3 (t : Nat) (ht : t < 128) (H : FVec Ideal S256x32 .f32) (x3 : FVec Ideal Cert.ReferenceIdeal.S32768x2 .f32)
    (x5 : FVec Ideal S2x32 .f32) (x6 : FVec Ideal S32 .f32) (x7 : FVec Ideal S32x32 .f32) (x8 : FVec Ideal S32 .f32)
    (x9 : FVec Ideal S32x4864 .f32)
    (hH : ∀ (p : Fin 256) (n : Fin 32), H (ix2 p n) = val_main_v31 (F := Ideal) x3 x5 x6 x7 x8 (ix2 (row t ht p) n))
    (p : Fin 256) (c : Fin 4864) :
    matmul (F := Ideal) dot_S256x32_S32x4864_S256x4864_1_0_0_1_n_n none (truncf .bf16 H bitsLt_bf16_f32) (truncf .bf16 x9 bitsLt_bf16_f32)
        (constant S256x4864 .f32 0x00000000#32) (ix2 p c)
      = val_main_v32 (F := Ideal) x3 x5 x6 x7 x8 x9 (ix2 (row t ht p) c) := by
  rw [ref32, kdot3_apply]
  refine Finset.sum_congr rfl fun k _ => ?_
  show H (ix2 p k) * x9 (ix2 k c) = _
  rw [hH]

end Layers

/-- The block's per-edge weights are the three layers above, then the split of each row's 4864 outputs into 16 x 304
    (narrowing to the short float format is the identity on the ideal values). -/
private theorem pay2_eq (X1 : FVec Ideal S256x2 .f32) (x5 : FVec Ideal S2x32 .f32) (x6 : FVec Ideal S32 .f32)
    (x7 : FVec Ideal S32x32 .f32) (x8 : FVec Ideal S32 .f32) (x9 : FVec Ideal S32x4864 .f32) :
    k0_pay2 (F := Ideal) X1 x5 x6 x7 x8 x9
      = truncf .bf16
          (shapeCast S256x16x304
            (matmul (F := Ideal) dot_S256x32_S32x4864_S256x4864_1_0_0_1_n_n none (truncf .bf16 (hid2 (hid1 X1 x5 x6) x7 x8) bitsLt_bf16_f32)
              (truncf .bf16 x9 bitsLt_bf16_f32) (constant S256x4864 .f32 0x00000000#32))
            shapeCasts_S256x4864_S256x16x304)
          bitsLt_bf16_f32 := rfl

/-- Row `p` of the block's per-edge weights is edge `t * 256 + p` of the reference's per-edge weights, when the
    block of edge features holds rows `t * 256 ..` of the edge-feature array. -/
theorem radial_eq (t : Nat) (ht : t < 128)
    (X1 : Vec Ideal S256x2 .f32) (x3 : FVec Ideal Cert.ReferenceIdeal.S32768x2 .f32)
    (x5 : Vec Ideal S2x32 .f32) (x6 : Vec Ideal S32 .f32) (x7 : Vec Ideal S32x32 .f32) (x8 : Vec Ideal S32 .f32) (x9 : Vec Ideal S32x4864 .f32)
    (h1 : ∀ (p : Fin 256) (a : Fin 2), X1 (ix2 p a) = x3 (ix2 (row t ht p) a))
    (p : Fin 256) (i : Fin 16) (j : Fin 304) :
    k0_pay2 (F := Ideal) X1 x5 x6 x7 x8 x9 (ix3 p i j)
      = Cert.ReferenceIdeal.Read.val_main_v33 (F := Ideal) x3 x5 x6 x7 x8 x9 (ix3 (row t ht p) i j) := by
  have hc : i.val * 304 + j.val < 4864 := by
    have hi := i.isLt
    have hj := j.isLt
    omega
  rw [refsplit x3 x5 x6 x7 x8 x9 (row t ht p) i j hc, pay2_eq, truncf_apply, ksplit_apply _ p i j hc]
  exact layer3 t ht (hid2 (hid1 X1 x5 x6) x7 x8) x3 x5 x6 x7 x8 x9
    (layer2 t ht (hid1 X1 x5 x6) x3 x5 x6 x7 x8 (layer1 t ht X1 x3 x5 x6 h1)) p ⟨i.val * 304 + j.val, hc⟩

end Cert.KernelIdeal.Radial

end
-- ==== Proof.Basis.lean ====
/-
  The basis contraction of one block of 256 edges is the basis contraction of all edges read at the block's rows:
  the edge axis is a batch axis of the product, and regrouping an edge's 16 x 171 entries as 304 x 9 does not mix edges.
-/
import proofs.«138543_j74406013435996_1_alg».proof.Proof.Gen.KernelIdeal.Skeleton
import proofs.«138543_j74406013435996_1_alg».proof.Proof.Gen.ReferenceIdeal.Read
import proofs.«138543_j74406013435996_1_alg».proof.Proof.Rows
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx Cert.Rows

namespace Cert.KernelIdeal.Basis

open Cert.KernelIdeal Cert.KernelIdeal.Gen

/-! The block's batched product read at an index: the edge axis is the batch axis, the lhs's last axis is contracted
    with the rhs's middle axis. -/

private theorem lhs_k33_0 (i : S256x16x171.Idx) (q : dot_S256x16x9_S256x9x171_S256x16x171_2_1_1_2_0_0.contr.Idx) :
    (dot_S256x16x9_S256x9x171_S256x16x171_2_1_1_2_0_0.lhsIdx i q 0).val = (i 0).val := by
  unfold DotDims.lhsIdx
  rw [dif_pos (show (0 : Fin S256x16x9.rank) ∈ dot_S256x16x9_S256x9x171_S256x16x171_2_1_1_2_0_0.lhsBatch by decide)]
  rfl
private theorem lhs_k33_1 (i : S256x16x171.Idx) (q : dot_S256x16x9_S256x9x171_S256x16x171_2_1_1_2_0_0.contr.Idx) :
    (dot_S256x16x9_S256x9x171_S256x16x171_2_1_1_2_0_0.lhsIdx i q 1).val = (i 1).val := by
  unfold DotDims.lhsIdx
  rw [dif_neg (show ¬(1 : Fin S256x16x9.rank) ∈ dot_S256x16x9_S256x9x171_S256x16x171_2_1_1_2_0_0.lhsBatch by decide), dif_pos (show (1 : Fin S256x16x9.rank) ∈ dot_S256x16x9_S256x9x171_S256x16x171_2_1_1_2_0_0.lhsNonContracting by decide)]
  rfl
private theorem lhs_k33_2 (i : S256x16x171.Idx) (q : dot_S256x16x9_S256x9x171_S256x16x171_2_1_1_2_0_0.contr.Idx) :
    (dot_S256x16x9_S256x9x171_S256x16x171_2_1_1_2_0_0.lhsIdx i q 2).val = (q ⟨0, by decide⟩).val :=
  dot_S256x16x9_S256x9x171_S256x16x171_2_1_1_2_0_0.lhsIdx_val_of_single rfl i q
private theorem rhs_k33_0 (i : S256x16x171.Idx) (q : dot_S256x16x9_S256x9x171_S256x16x171_2_1_1_2_0_0.contr.Idx) :
    (dot_S256x16x9_S256x9x171_S256x16x171_2_1_1_2_0_0.rhsIdx i q 0).val = (i 0).val := by
  unfold DotDims.rhsIdx
  rw [dif_pos (show (0 : Fin S256x9x171.rank) ∈ dot_S256x16x9_S256x9x171_S256x16x171_2_1_1_2_0_0.rhsBatch by decide)]
  rfl
private theorem rhs_k33_1 (i : S256x16x171.Idx) (q : dot_S256x16x9_S256x9x171_S256x16x171_2_1_1_2_0_0.contr.Idx) :
    (dot_S256x16x9_S256x9x171_S256x16x171_2_1_1_2_0_0.rhsIdx i q 1).val = (q ⟨0, by decide⟩).val :=
  dot_S256x16x9_S256x9x171_S256x16x171_2_1_1_2_0_0.rhsIdx_val_of_single rfl i q
private theorem rhs_k33_2 (i : S256x16x171.Idx) (q : dot_S256x16x9_S256x9x171_S256x16x171_2_1_1_2_0_0.contr.Idx) :
    (dot_S256x16x9_S256x9x171_S256x16x171_2_1_1_2_0_0.rhsIdx i q 2).val = (i 2).val := by
  unfold DotDims.rhsIdx
  rw [dif_neg (show ¬(2 : Fin S256x9x171.rank) ∈ dot_S256x16x9_S256x9x171_S256x16x171_2_1_1_2_0_0.rhsBatch by decide), dif_pos (show (2 : Fin S256x9x171.rank) ∈ dot_S256x16x9_S256x9x171_S256x16x171_2_1_1_2_0_0.rhsNonContracting by decide)]
  rfl

/-- The block's product at `(p, c, x)` is the sum over the contracted axis `d` of `A (p, c, d) * B (p, d, x)`. -/
private theorem k33_apply (A : FVec Ideal S256x16x9 .bf16) (B : FVec Ideal S256x9x171 .bf16) (p : Fin 256) (c : Fin 16) (x : Fin 171) :
    matmul (F := Ideal) dot_S256x16x9_S256x9x171_S256x16x171_2_1_1_2_0_0 none A B (constant (F := Ideal) S256x16x171 .f32 0x00000000#32) (ix3 p c x)
      = ∑ d : Fin 9, A (ix3 p c d) * B (ix3 p d x) := by
  refine (Ideal.matmul_constant_zero_apply dot_S256x16x9_S256x9x171_S256x16x171_2_1_1_2_0_0 none A B (ix3 p c x)).trans ?_
  rw [← Equiv.sum_comp (ValueIdx.contrEquiv1 dot_S256x16x9_S256x9x171_S256x16x171_2_1_1_2_0_0 9 rfl rfl).symm]
  refine Finset.sum_congr rfl fun k _ => ?_
  have hk := ValueIdx.contrEquiv1_symm_val dot_S256x16x9_S256x9x171_S256x16x171_2_1_1_2_0_0 9 rfl rfl k
  have el : dot_S256x16x9_S256x9x171_S256x16x171_2_1_1_2_0_0.lhsIdx (ix3 p c x) ((ValueIdx.contrEquiv1 dot_S256x16x9_S256x9x171_S256x16x171_2_1_1_2_0_0 9 rfl rfl).symm k) = ix3 p c k := funext fun a => Fin.ext (by
    match a with
    | ⟨0, _⟩ => exact lhs_k33_0 _ _
    | ⟨1, _⟩ => exact lhs_k33_1 _ _
    | ⟨2, _⟩ => exact (lhs_k33_2 _ _).trans hk)
  have er : dot_S256x16x9_S256x9x171_S256x16x171_2_1_1_2_0_0.rhsIdx (ix3 p c x) ((ValueIdx.contrEquiv1 dot_S256x16x9_S256x9x171_S256x16x171_2_1_1_2_0_0 9 rfl rfl).symm k) = ix3 p k x := funext fun a => Fin.ext (by
    match a with
    | ⟨0, _⟩ => exact rhs_k33_0 _ _
    | ⟨1, _⟩ => exact (rhs_k33_1 _ _).trans hk
    | ⟨2, _⟩ => exact rhs_k33_2 _ _)
  rw [el, er]

/-- Position `(j, k)` of an edge's `304 x 9` regrouping is position `((j * 9 + k) / 171, (j * 9 + k) % 171)` of its
    `16 x 171` entries: the block's payload there is the contraction over `d` of the two loaded blocks. -/
private theorem pay3_apply (X0 : Vec Ideal S256x16x9 .f32) (X2 : Vec Ideal S256x9x171 .f32) (p : Fin 256) (j : Fin 304) (k : Fin 9)
    (c : Fin 16) (x : Fin 171) (hc : c.val = (j.val * 9 + k.val) / 171) (hx : x.val = (j.val * 9 + k.val) % 171) :
    k0_pay3 (F := Ideal) X0 X2 (ix3 p j k) = ∑ d : Fin 9, X0 (ix3 p c d) * X2 (ix3 p d x) := by
  unfold k0_pay3
  rw [shapeCast_self, shapeCast_self]
  refine (ValueIdx.truncf_apply (φ := .f32) (ψ := .bf16) (s := S256x304x9) _ bitsLt_bf16_f32 (ix3 p j k)).trans ?_
  refine (shapeCast_apply _ shapeCasts_S256x16x171_S256x304x9 (ix3 p j k) (ix3 p c x) ?_).trans ?_
  · rewrite [Shape.rowMajor_val_three, Shape.rowMajor_val_three]
    have hp : p.val < 256 := p.isLt
    have hj : j.val < 304 := j.isLt
    have hk : k.val < 9 := k.isLt
    show (p.val * 16 + c.val) * 171 + x.val = (p.val * 304 + j.val) * 9 + k.val
    omega
  · exact k33_apply _ _ p c x

/-- The reference's regrouped product at edge `r`, position `(j, k)`: the same contraction over `d` at edge `r`. -/
private theorem v36_apply (x0 : FVec Ideal Cert.ReferenceIdeal.S8192x16x1 .f32) (x1 : FVec Ideal Cert.ReferenceIdeal.S8192x16x3 .f32)
    (x2 : FVec Ideal Cert.ReferenceIdeal.S8192x16x5 .f32) (x4 : FVec Ideal Cert.ReferenceIdeal.S32768x9x19x9 .f32)
    (x10 : IVec Cert.ReferenceIdeal.S32768 32) (r : Fin 32768) (j : Fin 304) (k : Fin 9)
    (c : Fin 16) (x : Fin 171) (hc : c.val = (j.val * 9 + k.val) / 171) (hx : x.val = (j.val * 9 + k.val) % 171) :
    Cert.ReferenceIdeal.Read.val_main_v36 (F := Ideal) x0 x1 x2 x4 x10 (ix3 r j k)
      = ∑ d : Fin 9, Cert.ReferenceIdeal.Read.val_main_v21 (F := Ideal) x0 x1 x2 x10 (ix3 r c d)
          * Cert.ReferenceIdeal.Read.val_main_v34 (F := Ideal) x4 (ix3 r d x) := by
  rw [Cert.ReferenceIdeal.Read.val_main_v36_apply, Cert.ReferenceIdeal.Read.val_main_v35_apply]
  generalize Cert.ReferenceIdeal.Read.val_main_v21 (F := Ideal) x0 x1 x2 x10 = y0
  generalize Cert.ReferenceIdeal.Read.val_main_v34 (F := Ideal) x4 = y1
  have hr : r.val < 32768 := r.isLt
  have hj : j.val < 304 := j.isLt
  have hk : k.val < 9 := k.isLt
  refine Finset.sum_congr rfl fun d _ => ?_
  have el : Cert.ReferenceIdeal.Read.lidx_main_v35 (Cert.ReferenceIdeal.Read.idx_main_v36 (ix3 r j k)) d = ix3 r c d :=
    funext fun a => Fin.ext (by
      match a with
      | ⟨0, _⟩ => show ((r.val * 304 + j.val) * 9 + k.val) / 2736 = r.val; omega
      | ⟨1, _⟩ => show ((r.val * 304 + j.val) * 9 + k.val) / 171 % 16 = c.val; omega
      | ⟨2, _⟩ => rfl)
  have er : Cert.ReferenceIdeal.Read.ridx_main_v35 (Cert.ReferenceIdeal.Read.idx_main_v36 (ix3 r j k)) d = ix3 r d x :=
    funext fun a => Fin.ext (by
      match a with
      | ⟨0, _⟩ => show ((r.val * 304 + j.val) * 9 + k.val) / 2736 = r.val; omega
      | ⟨1, _⟩ => rfl
      | ⟨2, _⟩ => show ((r.val * 304 + j.val) * 9 + k.val) % 171 = x.val; omega)
  rw [el, er]

/-- Row `p` of the block's contracted basis is edge `t * 256 + p` of the reference's, when the blocks of gathered node
    features and of the basis hold rows `t * 256 ..` of their arrays. -/
theorem basis_eq (t : Nat) (ht : t < 128)
    (x0 : FVec Ideal Cert.ReferenceIdeal.S8192x16x1 .f32) (x1 : FVec Ideal Cert.ReferenceIdeal.S8192x16x3 .f32) (x2 : FVec Ideal Cert.ReferenceIdeal.S8192x16x5 .f32)
    (x4 : FVec Ideal Cert.ReferenceIdeal.S32768x9x19x9 .f32) (x10 : IVec Cert.ReferenceIdeal.S32768 32)
    (X0 : Vec Ideal S256x16x9 .f32) (X2 : Vec Ideal S256x9x171 .f32)
    (h0 : ∀ (p : Fin 256) (c : Fin 16) (d : Fin 9), X0 (ix3 p c d) = Cert.ReferenceIdeal.Read.val_main_v21 (F := Ideal) x0 x1 x2 x10 (ix3 (row t ht p) c d))
    (h2 : ∀ (p : Fin 256) (d : Fin 9) (x : Fin 171), X2 (ix3 p d x) = Cert.ReferenceIdeal.Read.val_main_v34 (F := Ideal) x4 (ix3 (row t ht p) d x))
    (p : Fin 256) (j : Fin 304) (k : Fin 9) :
    k0_pay3 (F := Ideal) X0 X2 (ix3 p j k)
      = Cert.ReferenceIdeal.Read.val_main_v36 (F := Ideal) x0 x1 x2 x4 x10 (ix3 (row t ht p) j k) := by
  have hj : j.val < 304 := j.isLt
  have hk : k.val < 9 := k.isLt
  have hcl : (j.val * 9 + k.val) / 171 < 16 := by omega
  have hxl : (j.val * 9 + k.val) % 171 < 171 := by omega
  rw [pay3_apply X0 X2 p j k ⟨_, hcl⟩ ⟨_, hxl⟩ rfl rfl, v36_apply x0 x1 x2 x4 x10 (row t ht p) j k ⟨_, hcl⟩ ⟨_, hxl⟩ rfl rfl]
  exact Finset.sum_congr rfl fun d _ => by rw [h0, h2]

end Cert.KernelIdeal.Basis

end
-- ==== Proof.Fuse.lean ====
/-
  The last product fuses, edge by edge, the per-edge weights with the contracted basis; the edge axis is its batch axis,
  so a block of 256 edges gives the rows of the whole product.
-/
import proofs.«138543_j74406013435996_1_alg».proof.Proof.Gen.KernelIdeal.Skeleton
import proofs.«138543_j74406013435996_1_alg».proof.Proof.Gen.ReferenceIdeal.Read
import proofs.«138543_j74406013435996_1_alg».proof.Proof.Rows
import proofs.«138543_j74406013435996_1_alg».proof.Proof.Radial
import proofs.«138543_j74406013435996_1_alg».proof.Proof.Basis
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx Cert.Rows

namespace Cert.KernelIdeal.Fuse

open Cert.KernelIdeal Cert.KernelIdeal.Gen

/-! The block's last batched product read at an index: the edge axis is the batch axis, the lhs's last axis is
    contracted with the rhs's middle axis. -/

private theorem lhs_k36_0 (i : S256x16x9.Idx) (q : dot_S256x16x304_S256x304x9_S256x16x9_2_1_1_2_0_0.contr.Idx) :
    (dot_S256x16x304_S256x304x9_S256x16x9_2_1_1_2_0_0.lhsIdx i q 0).val = (i 0).val := by
  unfold DotDims.lhsIdx
  rw [dif_pos (show (0 : Fin S256x16x304.rank) ∈ dot_S256x16x304_S256x304x9_S256x16x9_2_1_1_2_0_0.lhsBatch by decide)]
  rfl
private theorem lhs_k36_1 (i : S256x16x9.Idx) (q : dot_S256x16x304_S256x304x9_S256x16x9_2_1_1_2_0_0.contr.Idx) :
    (dot_S256x16x304_S256x304x9_S256x16x9_2_1_1_2_0_0.lhsIdx i q 1).val = (i 1).val := by
  unfold DotDims.lhsIdx
  rw [dif_neg (show ¬(1 : Fin S256x16x304.rank) ∈ dot_S256x16x304_S256x304x9_S256x16x9_2_1_1_2_0_0.lhsBatch by decide), dif_pos (show (1 : Fin S256x16x304.rank) ∈ dot_S256x16x304_S256x304x9_S256x16x9_2_1_1_2_0_0.lhsNonContracting by decide)]
  rfl
private theorem lhs_k36_2 (i : S256x16x9.Idx) (q : dot_S256x16x304_S256x304x9_S256x16x9_2_1_1_2_0_0.contr.Idx) :
    (dot_S256x16x304_S256x304x9_S256x16x9_2_1_1_2_0_0.lhsIdx i q 2).val = (q ⟨0, by decide⟩).val :=
  dot_S256x16x304_S256x304x9_S256x16x9_2_1_1_2_0_0.lhsIdx_val_of_single rfl i q
private theorem rhs_k36_0 (i : S256x16x9.Idx) (q : dot_S256x16x304_S256x304x9_S256x16x9_2_1_1_2_0_0.contr.Idx) :
    (dot_S256x16x304_S256x304x9_S256x16x9_2_1_1_2_0_0.rhsIdx i q 0).val = (i 0).val := by
  unfold DotDims.rhsIdx
  rw [dif_pos (show (0 : Fin S256x304x9.rank) ∈ dot_S256x16x304_S256x304x9_S256x16x9_2_1_1_2_0_0.rhsBatch by decide)]
  rfl
private theorem rhs_k36_1 (i : S256x16x9.Idx) (q : dot_S256x16x304_S256x304x9_S256x16x9_2_1_1_2_0_0.contr.Idx) :
    (dot_S256x16x304_S256x304x9_S256x16x9_2_1_1_2_0_0.rhsIdx i q 1).val = (q ⟨0, by decide⟩).val :=
  dot_S256x16x304_S256x304x9_S256x16x9_2_1_1_2_0_0.rhsIdx_val_of_single rfl i q
private theorem rhs_k36_2 (i : S256x16x9.Idx) (q : dot_S256x16x304_S256x304x9_S256x16x9_2_1_1_2_0_0.contr.Idx) :
    (dot_S256x16x304_S256x304x9_S256x16x9_2_1_1_2_0_0.rhsIdx i q 2).val = (i 2).val := by
  unfold DotDims.rhsIdx
  rw [dif_neg (show ¬(2 : Fin S256x304x9.rank) ∈ dot_S256x16x304_S256x304x9_S256x16x9_2_1_1_2_0_0.rhsBatch by decide), dif_pos (show (2 : Fin S256x304x9.rank) ∈ dot_S256x16x304_S256x304x9_S256x16x9_2_1_1_2_0_0.rhsNonContracting by decide)]
  rfl

/-- Into a zero accumulator, the block's product at `(p, i, k)` is the sum over the contracted axis `j` of
    `l (p, i, j) * r (p, j, k)`. -/
private theorem pay1_apply (l : FVec Ideal S256x16x304 .bf16) (r : FVec Ideal S256x304x9 .bf16) (p : Fin 256) (i : Fin 16) (k : Fin 9) :
    k0_pay1 (F := Ideal) l r (constant (F := Ideal) S256x16x9 .f32 0x00000000#32) (ix3 p i k)
      = ∑ j : Fin 304, l (ix3 p i j) * r (ix3 p j k) := by
  unfold k0_pay1
  refine (Ideal.matmul_constant_zero_apply dot_S256x16x304_S256x304x9_S256x16x9_2_1_1_2_0_0 none l r (ix3 p i k)).trans ?_
  rw [← Equiv.sum_comp (ValueIdx.contrEquiv1 dot_S256x16x304_S256x304x9_S256x16x9_2_1_1_2_0_0 304 rfl rfl).symm]
  refine Finset.sum_congr rfl fun j _ => ?_
  have hj := ValueIdx.contrEquiv1_symm_val dot_S256x16x304_S256x304x9_S256x16x9_2_1_1_2_0_0 304 rfl rfl j
  have el : dot_S256x16x304_S256x304x9_S256x16x9_2_1_1_2_0_0.lhsIdx (ix3 p i k) ((ValueIdx.contrEquiv1 dot_S256x16x304_S256x304x9_S256x16x9_2_1_1_2_0_0 304 rfl rfl).symm j) = ix3 p i j := funext fun a => Fin.ext (by
    match a with
    | ⟨0, _⟩ => exact lhs_k36_0 _ _
    | ⟨1, _⟩ => exact lhs_k36_1 _ _
    | ⟨2, _⟩ => exact (lhs_k36_2 _ _).trans hj)
  have er : dot_S256x16x304_S256x304x9_S256x16x9_2_1_1_2_0_0.rhsIdx (ix3 p i k) ((ValueIdx.contrEquiv1 dot_S256x16x304_S256x304x9_S256x16x9_2_1_1_2_0_0 304 rfl rfl).symm j) = ix3 p j k := funext fun a => Fin.ext (by
    match a with
    | ⟨0, _⟩ => exact rhs_k36_0 _ _
    | ⟨1, _⟩ => exact (rhs_k36_1 _ _).trans hj
    | ⟨2, _⟩ => exact rhs_k36_2 _ _)
  rw [el, er]

/-- What the body stores for row `p` of block `t` is the reference's per-edge message of edge `t * 256 + p`. -/
theorem payload_eq (t : Nat) (ht : t < 128)
    (x0 : FVec Ideal Cert.ReferenceIdeal.S8192x16x1 .f32) (x1 : FVec Ideal Cert.ReferenceIdeal.S8192x16x3 .f32) (x2 : FVec Ideal Cert.ReferenceIdeal.S8192x16x5 .f32)
    (x3 : FVec Ideal Cert.ReferenceIdeal.S32768x2 .f32) (x4 : FVec Ideal Cert.ReferenceIdeal.S32768x9x19x9 .f32)
    (x5 : Vec Ideal S2x32 .f32) (x6 : Vec Ideal S32 .f32) (x7 : Vec Ideal S32x32 .f32) (x8 : Vec Ideal S32 .f32) (x9 : Vec Ideal S32x4864 .f32)
    (x10 : IVec Cert.ReferenceIdeal.S32768 32)
    (X0 : Vec Ideal S256x16x9 .f32) (X1 : Vec Ideal S256x2 .f32) (X2 : Vec Ideal S256x9x171 .f32)
    (h0 : ∀ (p : Fin 256) (c : Fin 16) (d : Fin 9), X0 (ix3 p c d) = Cert.ReferenceIdeal.Read.val_main_v21 (F := Ideal) x0 x1 x2 x10 (ix3 (row t ht p) c d))
    (h1 : ∀ (p : Fin 256) (a : Fin 2), X1 (ix2 p a) = x3 (ix2 (row t ht p) a))
    (h2 : ∀ (p : Fin 256) (d : Fin 9) (x : Fin 171), X2 (ix3 p d x) = Cert.ReferenceIdeal.Read.val_main_v34 (F := Ideal) x4 (ix3 (row t ht p) d x))
    (p : Fin 256) (i : Fin 16) (k : Fin 9) :
    k0_pay1 (F := Ideal) (k0_pay2 X1 x5 x6 x7 x8 x9) (k0_pay3 X0 X2) (constant S256x16x9 .f32 0x00000000#32) (ix3 p i k)
      = Cert.ReferenceIdeal.Read.val_main_v37 (F := Ideal) x0 x1 x2 x3 x4 x5 x6 x7 x8 x9 x10 (ix3 (row t ht p) i k) := by
  rw [pay1_apply, Cert.ReferenceIdeal.Read.val_main_v37_apply]
  refine Finset.sum_congr rfl fun j _ => ?_
  have el : Cert.ReferenceIdeal.Read.lidx_main_v37 (ix3 (row t ht p) i k) j = ix3 (row t ht p) i j :=
    funext fun a => Fin.ext (by
      match a with
      | ⟨0, _⟩ => rfl
      | ⟨1, _⟩ => rfl
      | ⟨2, _⟩ => rfl)
  have er : Cert.ReferenceIdeal.Read.ridx_main_v37 (ix3 (row t ht p) i k) j = ix3 (row t ht p) j k :=
    funext fun a => Fin.ext (by
      match a with
      | ⟨0, _⟩ => rfl
      | ⟨1, _⟩ => rfl
      | ⟨2, _⟩ => rfl)
  rw [el, er, Cert.KernelIdeal.Radial.radial_eq t ht X1 x3 x5 x6 x7 x8 x9 h1 p i j,
    Cert.KernelIdeal.Basis.basis_eq t ht x0 x1 x2 x4 x10 X0 X2 h0 h2 p j k]

end Cert.KernelIdeal.Fuse

end
-- ==== Proof.KernelIdealValue.lean ====
/-
  What the idealized kernel program computes. What point `t` stores for row `p` is, by the row-by-row comparison, the
  reference's message of edge `t * 256 + p`; so each point writes back a block of the reference's messages, the 128
  blocks cover the 32768 edges, and the array of messages ends as the reference's, one function of the twelve
  arguments. The scatter-add over `dst` and the three slices after the region are then the reference's own last
  operations applied to the same messages.
-/
import proofs.«138543_j74406013435996_1_alg».proof.Proof.KernelIdealBlocks
import proofs.«138543_j74406013435996_1_alg».proof.Proof.Fuse
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.KernelIdeal.Fr Cert.Rows
open Cert.ReferenceIdeal.Read (val_main_v21 val_main_v34 val_main_v37 val_main_v40 val_main_v41 val_main_v42 val_main_v43)

variable (m : (ℓ : Loc nD τ sig) → Buf (Elt Ideal) ℓ) (ρ : Dev nD → PrngReg)

/-! ## What a point writes back, and the array after the run -/

/-- What point `t` stores, read at row `p`, is the message of edge `t * 256 + p`. -/
theorem stored_apply (c : Dev nD) (t : Fin cfg0.N) (p : Fin 256) (i : Fin 16) (k : Fin 9) :
    k0_pay1 (F := Ideal) (k0_pay2 (iblk m c 1 t) (iblk m c 3 t) (iblk m c 4 t) (iblk m c 5 t) (iblk m c 6 t) (iblk m c 7 t))
        (k0_pay3 (iblk m c 0 t) (iblk m c 2 t)) (constant S256x16x9 .f32 0x00000000#32) (ix3 p i k)
      = msgs m c (ix3 (row t.val (lt128 t) p) i k) := by
  rw [blk3_eq m c t, blk4_eq m c t, blk5_eq m c t, blk6_eq m c t, blk7_eq m c t]
  refine Cert.KernelIdeal.Fuse.payload_eq t.val (lt128 t) (x0 m c) (x1 m c) (x2 m c) (x3 m c) (x4 m c) (x5 m c) (x6 m c) (x7 m c) (x8 m c) (x9 m c) (x10 m c)
    (iblk m c 0 t) (iblk m c 1 t) (iblk m c 2 t) ?_ ?_ ?_ p i k
  · intro p e d; rw [blk0_apply, V_feats]
  · intro p a'; rw [blk1_apply, V_main_arg3]
  · intro p d x; rw [blk2_apply, V_basis]

/-- Point `t` writes back block `t` of the messages. -/
theorem flushed_eq (c : Dev nD) (t : Fin cfg0.N) :
    (dats m 0 c).flushed 8 t = ((cfg0.win 8).blk t).view.read (Elt Ideal) (msgs m c) := by
  obtain ⟨h0, h1, h2⟩ := idx8 t
  show (cfg0.win 8).cut (grid0.coords t) ((dats m 0 c).after 8 t) = _
  rw [after8]
  unfold out8
  rw [View.canon_unit_zero hz3]
  funext j
  obtain ⟨p, i, k, rfl⟩ : ∃ (p : Fin 256) (i : Fin 16) (k : Fin 9), j = ix3 p i k := ⟨j 0, j 1, j 2, eq_ix3 j⟩
  refine (stored_apply m c t p i k).trans ?_
  show msgs m c _ = msgs m c (((cfg0.win 8).blk t).view.emb (ix3 p i k))
  congr 1
  funext a
  apply Fin.ext
  match a with
  | ⟨0, _⟩ => show t.val * 256 + p.val = win0_8.index t 0 * 256 + 1 * p.val; rw [h0]; omega
  | ⟨1, _⟩ => show i.val = win0_8.index t 1 * 16 + 1 * i.val; rw [h1]; omega
  | ⟨2, _⟩ => show k.val = win0_8.index t 2 * 9 + 1 * k.val; rw [h2]; omega

/-- The array of messages after the run is the reference's. -/
theorem final (c : Dev nD) : (dats m 0 c).arrAt 8 cfg0.N = msgs m c :=
  (dats m 0 c).arrAt_eq_of_cover 8 (msgs m c) (fun t _ => flushed_eq m c t) covered

/-! ## The operations after the region -/

/-- The pooled messages: the scatter-add of the messages over `dst` into zeros. -/
theorem tail_v26 (c : Dev nD) :
    (Pipeline.afterTail₀ cfgs (dats m) 0 (V0 m) [hostOps1] c main_v26 : S8192x16x9.Idx → Elt Ideal .f32) = val_main_v40 (F := Ideal) (x0 m c) (x1 m c) (x2 m c) (x3 m c) (x4 m c) (x5 m c) (x6 m c) (x7 m c) (x8 m c) (x9 m c) (x10 m c) (x11 m c) := by
  unfold Pipeline.afterTail₀
  show StableHlo.after hostOps1 _ (Proc.devRef .tc main_v26) = _
  after_results
  rw [Pipeline.withArrays_arr spec0 launch0.win.arr_inj c _ _ 8, final,
    Pipeline.withArrays_of_ne _ c (V0 m c) _ main_arg11 (by exact (by decide : ∀ w, Pipeline.arrRef spec0 w ≠ main_arg11))]
  show Host.scatterAdd _ _ (broadcastInDim _ _ _ (V m c main_arg11)) _ = _
  rw [V_main_arg11]
  rfl

/-- Result `v27`: the reference's own slice of the pooled messages. -/
theorem tail_v27 (c : Dev nD) :
    (Pipeline.afterTail₀ cfgs (dats m) 0 (V0 m) [hostOps1] c main_v27 : S8192x16x1.Idx → Elt Ideal .f32) = val_main_v41 (F := Ideal) (x0 m c) (x1 m c) (x2 m c) (x3 m c) (x4 m c) (x5 m c) (x6 m c) (x7 m c) (x8 m c) (x9 m c) (x10 m c) (x11 m c) := by
  unfold Pipeline.afterTail₀
  show StableHlo.after hostOps1 _ (Proc.devRef .tc main_v27) = _
  after_results
  rw [Pipeline.withArrays_arr spec0 launch0.win.arr_inj c _ _ 8, final,
    Pipeline.withArrays_of_ne _ c (V0 m c) _ main_arg11 (by exact (by decide : ∀ w, Pipeline.arrRef spec0 w ≠ main_arg11))]
  show extractStridedSlice _ _ (Host.scatterAdd _ _ (broadcastInDim _ _ _ (V m c main_arg11)) _) _ = _
  rw [V_main_arg11]
  rfl

/-- Result `v28`: the reference's own slice of the pooled messages. -/
theorem tail_v28 (c : Dev nD) :
    (Pipeline.afterTail₀ cfgs (dats m) 0 (V0 m) [hostOps1] c main_v28 : S8192x16x3.Idx → Elt Ideal .f32) = val_main_v42 (F := Ideal) (x0 m c) (x1 m c) (x2 m c) (x3 m c) (x4 m c) (x5 m c) (x6 m c) (x7 m c) (x8 m c) (x9 m c) (x10 m c) (x11 m c) := by
  unfold Pipeline.afterTail₀
  show StableHlo.after hostOps1 _ (Proc.devRef .tc main_v28) = _
  after_results
  rw [Pipeline.withArrays_arr spec0 launch0.win.arr_inj c _ _ 8, final,
    Pipeline.withArrays_of_ne _ c (V0 m c) _ main_arg11 (by exact (by decide : ∀ w, Pipeline.arrRef spec0 w ≠ main_arg11))]
  show extractStridedSlice _ _ (Host.scatterAdd _ _ (broadcastInDim _ _ _ (V m c main_arg11)) _) _ = _
  rw [V_main_arg11]
  rfl

/-- Result `v29`: the reference's own slice of the pooled messages. -/
theorem tail_v29 (c : Dev nD) :
    (Pipeline.afterTail₀ cfgs (dats m) 0 (V0 m) [hostOps1] c main_v29 : S8192x16x5.Idx → Elt Ideal .f32) = val_main_v43 (F := Ideal) (x0 m c) (x1 m c) (x2 m c) (x3 m c) (x4 m c) (x5 m c) (x6 m c) (x7 m c) (x8 m c) (x9 m c) (x10 m c) (x11 m c) := by
  unfold Pipeline.afterTail₀
  show StableHlo.after hostOps1 _ (Proc.devRef .tc main_v29) = _
  after_results
  rw [Pipeline.withArrays_arr spec0 launch0.win.arr_inj c _ _ 8, final,
    Pipeline.withArrays_of_ne _ c (V0 m c) _ main_arg11 (by exact (by decide : ∀ w, Pipeline.arrRef spec0 w ≠ main_arg11))]
  show extractStridedSlice _ _ (Host.scatterAdd _ _ (broadcastInDim _ _ _ (V m c main_arg11)) _) _ = _
  rw [V_main_arg11]
  rfl

/-! ## The run, read -/

/-- Every weakly fair execution of the idealized kernel program terminates with its three results at the reference's
    terms of the arguments, and the arguments as launched. -/
theorem run : θ_run defs (onTc (τ := τ) (main (F := Ideal))) ⟨m, fun _ => 0, ρ⟩ fun r => ∀ c : Dev nD,
      r.2.mem ((c.tc : Thread nD τ).loc main_v27) = val_main_v41 (F := Ideal) (x0 m c) (x1 m c) (x2 m c) (x3 m c) (x4 m c) (x5 m c) (x6 m c) (x7 m c) (x8 m c) (x9 m c) (x10 m c) (x11 m c)
      ∧ r.2.mem ((c.tc : Thread nD τ).loc main_v28) = val_main_v42 (F := Ideal) (x0 m c) (x1 m c) (x2 m c) (x3 m c) (x4 m c) (x5 m c) (x6 m c) (x7 m c) (x8 m c) (x9 m c) (x10 m c) (x11 m c)
      ∧ r.2.mem ((c.tc : Thread nD τ).loc main_v29) = val_main_v43 (F := Ideal) (x0 m c) (x1 m c) (x2 m c) (x3 m c) (x4 m c) (x5 m c) (x6 m c) (x7 m c) (x8 m c) (x9 m c) (x10 m c) (x11 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c =>
    ⟨((h c).2 main_v27 (Pipeline.mem_restRefs_of main_v27 (by decide) (by decide))).trans (tail_v27 m c),
     ((h c).2 main_v28 (Pipeline.mem_restRefs_of main_v28 (by decide) (by decide))).trans (tail_v28 m c),
     ((h c).2 main_v29 (Pipeline.mem_restRefs_of main_v29 (by decide) (by decide))).trans (tail_v29 m c),
     args_kept m r h c⟩) (run_main m ρ)

end Cert.KernelIdeal.Val

end
-- ==== Proof.lean ====
/-
  The equivariant convolution's message passing: for each of 32768 edges a radial network (two biased, clamped layers
  and a third linear one) turns the edge's two features into a 16 x 304 matrix of weights; the source node's 16 x 9
  features, gathered by `src`, are contracted with the edge's 9 x 171 basis and regrouped as 304 x 9; the product of the
  two is the edge's 16 x 9 message; the messages are added into their destination nodes by `dst` and the pooled array is
  cut into the three degrees. The kernel computes the messages 256 edges at a time in one pipelined region and leaves
  the gather and the scatter-add to host operations, the same ones the reference uses. Over the extended reals the
  casts to sixteen bits are the identity and every product is the plain sum over its contracted axis, none of which is
  the edge axis: so a block's rows are the reference's rows (Radial, Basis, Fuse), the region's output array is the
  reference's array of messages (KernelIdealValue), and the two programs end with the same three results. Neither
  program writes an argument; the kernel programs' frames are KernelFrame and KernelIdealFrame, the reference's is its
  run. No law that needs finite values is used, so the precondition is never opened.
-/
import proofs.«138543_j74406013435996_1_alg».proof.Defs
import proofs.«138543_j74406013435996_1_alg».proof.Proof.Gen.Kernel
import proofs.«138543_j74406013435996_1_alg».proof.Proof.Gen.KernelIdeal
import proofs.«138543_j74406013435996_1_alg».proof.Proof.Gen.ReferenceIdeal
import proofs.«138543_j74406013435996_1_alg».proof.Proof.Gen.ReferenceIdeal.Run
import proofs.«138543_j74406013435996_1_alg».proof.Proof.Gen.ReferenceIdeal.Read
import proofs.«138543_j74406013435996_1_alg».proof.Proof.Gen.Pre_finite_inputs
import proofs.«138543_j74406013435996_1_alg».proof.Proof.KernelFrame
import proofs.«138543_j74406013435996_1_alg».proof.Proof.KernelIdealFrame
import proofs.«138543_j74406013435996_1_alg».proof.Proof.KernelIdealValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Fr.frame m ρ

theorem frame_ki : Cert.frame_KernelIdeal (hKernelIdeal := Cert.KernelIdeal.Gen.facts) (hPre_finite_inputs := Cert.Pre_finite_inputs.Gen.facts) :=
  fun m ρ _ => Cert.KernelIdeal.Fr.frame m ρ

/-- The reference's frame is its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.Value.run (F := Ideal) m ρ)

/-- Both programs end with the reference's three terms of the arguments, which agree. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, _, _, Cert.KernelIdeal.Val.run m ρ, ?_⟩
  refine (θ_run Cert.ReferenceIdeal.defs _ _).mono (fun _ h c => ?_) (Cert.ReferenceIdeal.Value.run (F := Ideal) m' ρ')
  obtain ⟨e0, e1, e2, e3, e4, e5, e6, e7, e8, e9, e10, e11⟩ := hagree c
  refine ⟨(h c).1.trans ?_, (h c).2.1.trans ?_, (h c).2.2.1.trans ?_, (h c).2.2.2⟩
  · rw [Cert.ReferenceIdeal.Read.val_main_v41_eq, e0, e1, e2, e3, e4, e5, e6, e7, e8, e9, e10, e11]
  · rw [Cert.ReferenceIdeal.Read.val_main_v42_eq, e0, e1, e2, e3, e4, e5, e6, e7, e8, e9, e10, e11]
  · rw [Cert.ReferenceIdeal.Read.val_main_v43_eq, e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
